-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S32000x2048 : Shape := ⟨2, ![32000, 2048]⟩
abbrev S4x2048 : Shape := ⟨2, ![4, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v8 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v8 main_v17
  main_v18

def fn {F : FTy → Type} [FloatOps F] (main_arg0 : FVec F S4x2048x2048 .f32) (main_arg1 : FVec F S32000x2048 .f32) (main_arg2 : IVec S4x2048 32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S4x2048 32 := broadcastInDim S4x2048 ![] bcast_S_S4x2048 main_c_2
  let main_v10 : IVec S4x2048 1 := cmpi .eq main_arg2 main_v9
  let main_c_3 : IVec S_ 32 := constantI S_ 32 0#32
  let main_v11 : IVec S4x2048 32 := broadcastInDim S4x2048 ![] bcast_S_S4x2048 main_c_3
  let main_v12 : IVec S4x2048 1 := cmpi .sge main_arg2 main_v11
  let main_c_4 : IVec S_ 32 := constantI S_ 32 32000#32
  let main_v13 : IVec S4x2048 32 := broadcastInDim S4x2048 ![] bcast_S_S4x2048 main_c_4
  let main_v14 : IVec S4x2048 1 := cmpi .slt main_arg2 main_v13
  let main_v15 : IVec S4x2048 1 := andi main_v12 main_v14
  let main_v16 : IVec S4x2048 1 := ori main_v10 main_v15
  fn_part1 (F := F) main_v8 main_v16
-- ==== Kernel.lean ====
abbrev S4x2048x2048 : Shape := ⟨3, ![4, 2048, 2048]⟩
abbrev S32000x2048 : Shape := ⟨2, ![32000, 2048]⟩
abbrev S4x2048 : Shape := ⟨2, ![4, 2048]⟩
abbrev S8192x2048 : Shape := ⟨2, ![8192, 2048]⟩
abbrev S8192x1 : Shape := ⟨2, ![8192, 1]⟩
abbrev S8192x32000 : Shape := ⟨2, ![8192, 32000]⟩
abbrev S1024x2048 : Shape := ⟨2, ![1024, 2048]⟩
abbrev S1280x2048 : Shape := ⟨2, ![1280, 2048]⟩
abbrev S1024x1 : Shape := ⟨2, ![1024, 1]⟩
abbrev S1024x1280 : Shape := ⟨2, ![1024, 1280]⟩
abbrev S1024 : Shape := ⟨1, ![1024]⟩
abbrev S_ : Shape := ⟨0, ![]⟩
abbrev S4x2048x32000 : Shape := ⟨3, ![4, 2048, 32000]⟩

abbrev nBuf : Space → Nat
  | .hbm => 20
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S8192x2048, .f32⟩
  | .hbm, ⟨4, _⟩ => ⟨S8192x2048, .bf16⟩
  | .hbm, ⟨5, _⟩ => ⟨S32000x2048, .bf16⟩
  | .hbm, ⟨6, _⟩ => ⟨S8192x1, .i32⟩
  | .hbm, ⟨7, _⟩ => ⟨S8192x32000, .f32⟩
  | .hbm, ⟨8, _⟩ => ⟨S8192x1, .f32⟩
  | .hbm, ⟨9, _⟩ => ⟨S8192x1, .f32⟩
  | .hbm, ⟨10, _⟩ => ⟨S8192x1, .i32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S4x2048x32000, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1, .i32⟩
  | .local _ .vmem, ⟨5, _⟩ => ⟨S1024x1, .i32⟩
  | .local _ .vmem, ⟨6, _⟩ => ⟨S1024x1280, .f32⟩
  | .local _ .vmem, ⟨7, _⟩ => ⟨S1024x1280, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v47 : BitVec 1 := Scalar.cmpi .eq arg1 c24_i32
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S4x2048_S8192x1 : S4x2048.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1024x1280_S1024x1280_0_0 : ∀ a, (![0, 0] : Fin 2 → Nat) a + S1024x1280.size a ≤ S1024x1280.size a
  h_S1024x1280 : 0 < S1024x1280.numel
  reduces_S1024x1280_S1024 : S1024x1280.Reduces [1] S1024
  shapeCasts_S1024_S1024x1 : S1024.ShapeCasts S1024x1
  broadcasts_S1024x1_S1024x1280 : S1024x1.Broadcasts S1024x1280
  iota_S1024x1280_d1_w32 : S1024x1280.Iotas .tc 32 [1]
  natLt_1_32 : 1 < 32
  reducesTo_S8192x1_S_d0_1 : S8192x1.ReducesTo [0, 1] S_
  h_S_ : 0 < S_.numel
  shapeCasts_S8192x32000_S4x2048x32000 : S8192x32000.ShapeCasts S4x2048x32000
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S8192x32000.size a
  hwx0_3 : ∀ i : grid0.Coords, EltTy.bits .f32 = 32 ∨ (Rect.block (s := S8192x32000) S1024x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1280.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S32000x2048 : Shape := ⟨2, ![32000, 2048]⟩
abbrev S4x2048 : Shape := ⟨2, ![4, 2048]⟩
abbrev S4x2048x32000 : Shape := ⟨3, ![4, 2048, 32000]⟩
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S32000x2048, .f32⟩
  | .hbm, ⟨2, _⟩ => ⟨S4x2048, .i32⟩
  | .hbm, ⟨3, _⟩ => ⟨S4x2048x32000, .f32⟩
  | .hbm, ⟨4, _⟩ => ⟨S8192x32000, .f32⟩
  | .hbm, ⟨5, _⟩ => ⟨S8192, .i32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x32000, .f32⟩
  | .hbm, ⟨13, _⟩ => ⟨S8192x32000, .f32⟩
  | .hbm, ⟨14, _⟩ => ⟨S8192x32000, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S8192x32000, .f32⟩
  | .hbm, ⟨20, _⟩ => ⟨S8192x32000, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S_, .i32⟩
  | .hbm, ⟨30, _⟩ => ⟨S8192x1, .i32⟩
  | .hbm, ⟨31, _⟩ => ⟨S8192x1, .i1⟩
  | .hbm, ⟨32, _⟩ => ⟨S_, .i32⟩
  | .hbm, ⟨33, _⟩ => ⟨S8192x1, .i32⟩
  | .hbm, ⟨34, _⟩ => ⟨S8192x1, .i32⟩
  | .hbm, ⟨35, _⟩ => ⟨S8192x1, .i32⟩
  | .hbm, ⟨36, _⟩ => ⟨S8192x1x1, .i32⟩
  | .hbm, ⟨37, _⟩ => ⟨S1, .i32⟩
  | .hbm, ⟨38, _⟩ => ⟨S_, .i32⟩
  | .hbm, ⟨39, _⟩ => ⟨S8192x1x1, .i32⟩
  | .hbm, ⟨40, _⟩ => ⟨S8192x1x1, .i1⟩
  | .hbm, ⟨41, _⟩ => ⟨S1x1x1, .i32⟩
  | .hbm, ⟨42, _⟩ => ⟨S8192x1x1, .i32⟩
  | .hbm, ⟨43, _⟩ => ⟨S8192x1x1, .i1⟩
  | .hbm, ⟨44, _⟩ => ⟨S8192x1x1, .i1⟩
  | .hbm, ⟨45, _⟩ => ⟨S_, .i1⟩
  | .hbm, ⟨46, _⟩ => ⟨S8192x1, .i1⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192, .f32⟩
  | .hbm, ⟨52, _⟩ => ⟨S8192, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_1 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v13 : Ref sig .tc := ⟨.hbm, 59, rfl⟩
abbrev main_cst_2 : Ref sig .tc := ⟨.hbm, 60, rfl⟩
abbrev main_v14 : Ref sig .tc := ⟨.hbm, 61, rfl⟩
abbrev main_v15 : Ref sig .tc := ⟨.hbm, 62, rfl⟩
abbrev main_c_3 : Ref sig .tc := ⟨.hbm, 63, rfl⟩
abbrev main_v16 : Ref sig .tc := ⟨.hbm, 64, rfl⟩
abbrev main_c_4 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩

abbrev nD : Nat := 1
abbrev τ : Topo := Topo.v7x

variable {F : FTy → Type} [FloatOps F]

class Facts₀ : Prop where
  shapeCasts_S4x2048x32000_S8192x32000 : S4x2048x32000.ShapeCasts S8192x32000
  shapeCasts_S4x2048_S8192 : S4x2048.ShapeCasts S8192
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  natLt_1_32 : 1 < 32
  dot_S4x2048x2048_S32000x2048_S4x2048x32000_2_1_01_0_n_n_wf : DotDims.WF S4x2048x2048 S32000x2048 S4x2048x32000 [2] [1] [0, 1] [0] [] []
  gather_S8192x32000_S8192x1x1_S8192x1_n_1_0_0_1_2_11_wf : GatherDims.WF S8192x32000 S8192x1x1 S8192x1 [] [1] [0] [1] [0] 2 ![1, 1]

variable [Facts₀]

def dot_S4x2048x2048_S32000x2048_S4x2048x32000_2_1_01_0_n_n : DotDims S4x2048x2048 S32000x2048 S4x2048x32000 where
  lhsContracting := [2]
  rhsContracting := [1]
  lhsNonContracting := [0, 1]
  rhsNonContracting := [0]
  lhsBatch := []
  rhsBatch := []
  wf := dot_S4x2048x2048_S32000x2048_S4x2048x32000_2_1_01_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Chain.lean ====
/-
  What the three carried columns (running maximum, rescaled sum of exponentials, gold logit) and the three output
  blocks hold after each grid point, as the body's own arithmetic terms applied to the point's input blocks:
  the columns are re-seeded at the first vocabulary tile of a row block and updated from the previous point's
  columns otherwise; the logits block is the point's matrix product; the loss and validity columns are written
  at the last vocabulary tile from the columns just updated.
-/
import proofs.«423124_j4733053960281_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]
variable (m : (ℓ : Loc nD τ sig) → Buf (Elt F) ℓ)

/-- The three carried columns. -/
abbrev Cols (F : FTy → Type) : Type := Vec F S1024x1 .f32 × Vec F S1024x1 .f32 × Vec F S1024x1 .f32

/-- The columns a row block starts from: the finite seed of the maximum, and two zero columns. -/
def seed : Cols F := (k0_pay6, k0_pay7, k0_pay8)

/-- One vocabulary tile folded into the columns: the new maximum, the rescaled sum, the gold logit. -/
def upd (i : grid0.Coords) (x0 : Vec F S1024x2048 .bf16) (x1 : Vec F S1280x2048 .bf16) (x2 : Vec F S1024x1 .i32)
    (s : Cols F) : Cols F :=
  (k0_pay2 (k0_pay10 x0 x1 s.1), k0_pay11 x0 x1 s.1 s.1 s.2.1,
    k0_pay1 (k0_pay9 x0 x1) (k0_pay12 x2) (k0_pay13 i) s.2.2)

/-- The columns after grid point `n`: re-seeded where a row block starts, else updated from the point before. -/
def cols (c : Dev nD) : (n : ℕ) → n < cfg0.N → Cols F
  | 0, h => upd (grid0.coords ⟨0, h⟩) (iblk m c 0 ⟨0, h⟩) (iblk m c 1 ⟨0, h⟩) (iblk m c 2 ⟨0, h⟩) seed
  | n + 1, h => upd (grid0.coords ⟨n + 1, h⟩) (iblk m c 0 ⟨n + 1, h⟩) (iblk m c 1 ⟨n + 1, h⟩) (iblk m c 2 ⟨n + 1, h⟩)
      (if (n + 1) % 25 = 0 then seed else cols c n (Nat.lt_of_succ_lt h))

/-! ## What each store of one run leaves, read back

Every store of the body writes a whole column (or the whole logits block) at offset zero, so what a buffer ends a run
holding is the payload of its last store; a load through the same whole rectangle reads the buffer's contents, and a
load that follows a store of the same run reads that store's payload. -/

/-- The zero offsets, however they are spelt. -/
private theorem hz : (![0, 0] : Fin 2 → Nat) = fun _ => 0 := funext fun a => by fin_cases a <;> rfl

private theorem sB0 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : ¬cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_0 c i a2 h2 a3 h3 a4 h4 a5 h5 a6 h6 a7 h7 a8 h8 a9 h9 a10 h10 hc0 hc1 x0 x1 x2 xs0 xs1 xs2 = k0_pay2 (k0_pay10 x0 x1 xs0) := by
  unfold sout0_B_0
  rw [View.read_writes_eq_canon _ _ _ (scover0_B_0 c i a2 h2 a3 h3 a4 h4 a5 h5 a6 h6 a7 h7 a8 h8 a9 h9 a10 h10 hc0 hc1 x0 x1 x2 xs0 xs1 xs2)]
  unfold kernelRun0_B
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sB1 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : ¬cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_1 c i a2 h2 a3 h3 a4 h4 a5 h5 a6 h6 a7 h7 a8 h8 a9 h9 a10 h10 hc0 hc1 x0 x1 x2 xs0 xs1 xs2 = k0_pay11 x0 x1 xs0 xs0 xs1 := by
  unfold sout0_B_1
  rw [View.read_writes_eq_canon _ _ _ (scover0_B_1 c i a2 h2 a3 h3 a4 h4 a5 h5 a6 h6 a7 h7 a8 h8 a9 h9 a10 h10 hc0 hc1 x0 x1 x2 xs0 xs1 xs2)]
  unfold kernelRun0_B
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sB2 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : ¬cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_2 c i a2 h2 a3 h3 a4 h4 a5 h5 a6 h6 a7 h7 a8 h8 a9 h9 a10 h10 hc0 hc1 x0 x1 x2 xs0 xs1 xs2 = k0_pay1 (k0_pay9 x0 x1) (k0_pay12 x2) (k0_pay13 i) xs2 := by
  unfold sout0_B_2
  rw [View.read_writes_eq_canon _ _ _ (scover0_B_2 c i a2 h2 a3 h3 a4 h4 a5 h5 a6 h6 a7 h7 a8 h8 a9 h9 a10 h10 hc0 hc1 x0 x1 x2 xs0 xs1 xs2)]
  unfold kernelRun0_B
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem oB3 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : ¬cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_B_3 c i a2 h2 a3 h3 a4 h4 a5 h5 a6 h6 a7 h7 a8 h8 a9 h9 a10 h10 hc0 hc1 x0 x1 x2 xs0 xs1 xs2 = k0_pay9 x0 x1 := by
  unfold out0_B_3
  rw [View.read_writes_eq_canon _ _ _ (cover0_B_3 c i a2 h2 a3 h3 a4 h4 a5 h5 a6 h6 a7 h7 a8 h8 a9 h9 a10 h10 hc0 hc1 x0 x1 x2 xs0 xs1 xs2)]
  unfold kernelRun0_B
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sC0 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_0 c i a2 h2 a3 h3 a4 h4 a5 h5 a6 h6 a7 h7 a8 h8 a9 h9 a10 h10 hc0 hc1 x0 x1 x2 xs0 xs1 xs2 = k0_pay2 (k0_pay10 x0 x1 xs0) := by
  unfold sout0_C_0
  rw [View.read_writes_eq_canon _ _ _ (scover0_C_0 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sC1 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_1 c i a2 h2 a3 h3 a4 h4 a5 h5 a6 h6 a7 h7 a8 h8 a9 h9 a10 h10 hc0 hc1 x0 x1 x2 xs0 xs1 xs2 = k0_pay11 x0 x1 xs0 xs0 xs1 := by
  unfold sout0_C_1
  rw [View.read_writes_eq_canon _ _ _ (scover0_C_1 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sC2 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_2 c i a2 h2 a3 h3 a4 h4 a5 h5 a6 h6 a7 h7 a8 h8 a9 h9 a10 h10 hc0 hc1 x0 x1 x2 xs0 xs1 xs2 = k0_pay1 (k0_pay9 x0 x1) (k0_pay12 x2) (k0_pay13 i) xs2 := by
  unfold sout0_C_2
  rw [View.read_writes_eq_canon _ _ _ (scover0_C_2 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem oC3 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_C_3 c i a2 h2 a3 h3 a4 h4 a5 h5 a6 h6 a7 h7 a8 h8 a9 h9 a10 h10 hc0 hc1 x0 x1 x2 xs0 xs1 xs2 = k0_pay9 x0 x1 := by
  unfold out0_C_3
  rw [View.read_writes_eq_canon _ _ _ (cover0_C_3 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem oA3 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : cond0_0 i) (hc1 : ¬cond0_1 i) (x0 : Vec F S1024x2048 .bf16) (x1 : Vec F S1280x2048 .bf16) (x2 : Vec F S1024x1 .i32)  :
    out0_A_3 c i a2 h2 a3 h3 a4 h4 a5 h5 a6 h6 a7 h7 a8 h8 a9 h9 a10 h10 hc0 hc1 x0 x1 x2  = k0_pay9 x0 x1 := by
  unfold out0_A_3
  rw [View.read_writes_eq_canon _ _ _ (cover0_A_3 c i a2 h2 a3 h3 a4 h4 a5 h5 a6 h6 a7 h7 a8 h8 a9 h9 a10 h10 hc0 hc1 x0 x1 x2 )]
  unfold kernelRun0_A
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz]

private theorem sA0 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : cond0_0 i) (hc1 : ¬cond0_1 i) (x0 : Vec F S1024x2048 .bf16) (x1 : Vec F S1280x2048 .bf16) (x2 : Vec F S1024x1 .i32)  :
    sout0_A_0 c i a2 h2 a3 h3 a4 h4 a5 h5 a6 h6 a7 h7 a8 h8 a9 h9 a10 h10 hc0 hc1 x0 x1 x2  = k0_pay2 (k0_pay10 x0 x1 k0_pay6) := by
  unfold sout0_A_0
  rw [View.read_writes_eq_canon _ _ _ (scover0_A_0 c i a2 h2 a3 h3 a4 h4 a5 h5 a6 h6 a7 h7 a8 h8 a9 h9 a10 h10 hc0 hc1 x0 x1 x2 )]
  unfold kernelRun0_A
  dsimp only
  sl_unfold_words
  rw [View.canon_cons_unit_zero (S := S1024x1) hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz, View.readCov_unit_zero (S := S1024x1) _ hz]

private theorem sA1 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : cond0_0 i) (hc1 : ¬cond0_1 i) (x0 : Vec F S1024x2048 .bf16) (x1 : Vec F S1280x2048 .bf16) (x2 : Vec F S1024x1 .i32)  :
    sout0_A_1 c i a2 h2 a3 h3 a4 h4 a5 h5 a6 h6 a7 h7 a8 h8 a9 h9 a10 h10 hc0 hc1 x0 x1 x2  = k0_pay11 x0 x1 k0_pay6 k0_pay6 k0_pay7 := by
  unfold sout0_A_1
  rw [View.read_writes_eq_canon _ _ _ (scover0_A_1 c i a2 h2 a3 h3 a4 h4 a5 h5 a6 h6 a7 h7 a8 h8 a9 h9 a10 h10 hc0 hc1 x0 x1 x2 )]
  unfold kernelRun0_A
  dsimp only
  sl_unfold_words
  rw [View.canon_cons_unit_zero (S := S1024x1) hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz, View.readCov_unit_zero (S := S1024x1) _ hz]

private theorem sA2 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : cond0_0 i) (hc1 : ¬cond0_1 i) (x0 : Vec F S1024x2048 .bf16) (x1 : Vec F S1280x2048 .bf16) (x2 : Vec F S1024x1 .i32)  :
    sout0_A_2 c i a2 h2 a3 h3 a4 h4 a5 h5 a6 h6 a7 h7 a8 h8 a9 h9 a10 h10 hc0 hc1 x0 x1 x2  = k0_pay1 (k0_pay9 x0 x1) (k0_pay12 x2) (k0_pay13 i) k0_pay8 := by
  unfold sout0_A_2
  rw [View.read_writes_eq_canon _ _ _ (scover0_A_2 c i a2 h2 a3 h3 a4 h4 a5 h5 a6 h6 a7 h7 a8 h8 a9 h9 a10 h10 hc0 hc1 x0 x1 x2 )]
  unfold kernelRun0_A
  dsimp only
  sl_unfold_words
  rw [View.canon_cons_unit_zero (S := S1024x1) hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz, View.readCov_unit_zero (S := S1024x1) _ hz]

private theorem oC4 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_C_4 c i a2 h2 a3 h3 a4 h4 a5 h5 a6 h6 a7 h7 a8 h8 a9 h9 a10 h10 hc0 hc1 x0 x1 x2 xs0 xs1 xs2 = k0_pay4 (k0_pay12 x2) (k0_pay2 (k0_pay10 x0 x1 xs0)) (k0_pay11 x0 x1 xs0 xs0 xs1) (k0_pay1 (k0_pay9 x0 x1) (k0_pay12 x2) (k0_pay13 i) xs2) := by
  unfold out0_C_4
  rw [View.read_writes_eq_canon _ _ _ (cover0_C_4 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz, View.readCov_unit_zero (S := S1024x1) _ hz]

private theorem oC5 (c : Dev nD) (i : grid0.Coords) (a2 : Memref sig .tc .vmem S1024x2048 .bf16) (h2 : a2.IsWhole) (a3 : Memref sig .tc .vmem S1280x2048 .bf16) (h3 : a3.IsWhole) (a4 : Memref sig .tc .vmem S1024x1 .i32) (h4 : a4.IsWhole) (a5 : Memref sig .tc .vmem S1024x1280 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hc0 : ¬cond0_0 i) (hc1 : cond0_1 i) (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_C_5 c i a2 h2 a3 h3 a4 h4 a5 h5 a6 h6 a7 h7 a8 h8 a9 h9 a10 h10 hc0 hc1 x0 x1 x2 xs0 xs1 xs2 = k0_pay5 (k0_pay12 x2) := by
  unfold out0_C_5
  rw [View.read_writes_eq_canon _ _ _ (cover0_C_5 c i a2 h2 a3 h3 a4 h4 a5 h5 a6 h6 a7 h7 a8 h8 a9 h9 a10 h10 hc0 hc1 x0 x1 x2 xs0 xs1 xs2)]
  unfold kernelRun0_C
  dsimp only
  sl_unfold_words
  rw [View.canon_unit_zero hz]
  simp only [View.readAt_eq_ld, h2.read_unread, h3.read_unread, h4.read_unread, h8.read_unread, h9.read_unread, h10.read_unread, View.ld_unit_zero (S := S1024x2048) hz, View.ld_unit_zero (S := S1280x2048) hz, View.ld_unit_zero (S := S1024x1) hz, View.ld_unit_zero (S := S1024x1280) hz, View.readCov_unit_zero (S := S1024x1) _ hz]

/-! ## One grid point

At a row block's first vocabulary tile the three columns are the update of the seed; at every other tile they are the
update of the columns the point before left. -/

private theorem scr_A (c : Dev nD) (t : Fin cfg0.N) (h0 : t.val % 25 = 0) (h1 : ¬t.val % 25 = 24) :
    ((outsAt0 m c t.val t.isLt).2.2.2.1, (outsAt0 m c t.val t.isLt).2.2.2.2.1, (outsAt0 m c t.val t.isLt).2.2.2.2.2) = upd (grid0.coords t) (iblk m c 0 t) (iblk m c 1 t) (iblk m c 2 t) seed := by
  rw [outsAt0_A m c t h0 h1]
  dsimp only
  rw [sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t), sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t), sA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t)]
  rfl

private theorem scr_B (c : Dev nD) (t : Fin cfg0.N) (h0 : ¬t.val % 25 = 0) (h1 : ¬t.val % 25 = 24) :
    ((outsAt0 m c t.val t.isLt).2.2.2.1, (outsAt0 m c t.val t.isLt).2.2.2.2.1, (outsAt0 m c t.val t.isLt).2.2.2.2.2) = upd (grid0.coords t) (iblk m c 0 t) (iblk m c 1 t) (iblk m c 2 t) ((outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2) := by
  rw [outsAt0_B m c t h0 h1]
  dsimp only
  rw [sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rfl

private theorem scr_C (c : Dev nD) (t : Fin cfg0.N) (h0 : ¬t.val % 25 = 0) (h1 : t.val % 25 = 24) :
    ((outsAt0 m c t.val t.isLt).2.2.2.1, (outsAt0 m c t.val t.isLt).2.2.2.2.1, (outsAt0 m c t.val t.isLt).2.2.2.2.2) = upd (grid0.coords t) (iblk m c 0 t) (iblk m c 1 t) (iblk m c 2 t) ((outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2) := by
  rw [outsAt0_C m c t h0 h1]
  dsimp only
  rw [sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rfl

/-- The carried scratch after point `n` is those columns. -/
theorem scratch_eq (c : Dev nD) (n : ℕ) (h : n < cfg0.N) :
    ((outsAt0 m c n h).2.2.2.1, (outsAt0 m c n h).2.2.2.2.1, (outsAt0 m c n h).2.2.2.2.2) = cols m c n h := by
  induction n with
  | zero =>
    rw [cols]
    exact scr_A m c ⟨0, h⟩ (Nat.zero_mod 25) (by dsimp only; omega)
  | succ n ih =>
    have hN : n + 1 < 200 := lt_of_lt_of_eq h (show cfg0.N = 200 from N_0)
    rw [cols]
    by_cases h0 : (n + 1) % 25 = 0
    · rw [if_pos h0]
      exact scr_A m c ⟨n + 1, h⟩ h0 (by dsimp only; omega)
    · rw [if_neg h0, ← ih (Nat.lt_of_succ_lt h)]
      by_cases h1 : (n + 1) % 25 = 24
      · exact scr_C m c ⟨n + 1, h⟩ h0 h1
      · exact scr_B m c ⟨n + 1, h⟩ h0 h1

/-- The logits block a point leaves is the product of its two input blocks. -/
theorem out3_eq (c : Dev nD) (t : Fin cfg0.N) :
    (outsAt0 m c t.val t.isLt).1 = k0_pay9 (iblk m c 0 t) (iblk m c 1 t) := by
  have hN : t.val < 200 := lt_of_lt_of_eq t.isLt (show cfg0.N = 200 from N_0)
  by_cases h0 : t.val % 25 = 0
  · have h1 : ¬t.val % 25 = 24 := by omega
    rw [outsAt0_A m c t h0 h1]
    dsimp only
    exact oA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t)
  · by_cases h1 : t.val % 25 = 24
    · rw [outsAt0_C m c t h0 h1]
      dsimp only
      exact oC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · rw [outsAt0_B m c t h0 h1]
      dsimp only
      exact oB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At a row block's last vocabulary tile the loss column is written from the columns just updated. -/
theorem out4_eq (c : Dev nD) (t : Fin cfg0.N) (h : t.val % 25 = 24) :
    (outsAt0 m c t.val t.isLt).2.1
      = k0_pay4 (k0_pay12 (iblk m c 2 t)) (cols m c t.val t.isLt).1 (cols m c t.val t.isLt).2.1 (cols m c t.val t.isLt).2.2 := by
  have h0 : ¬t.val % 25 = 0 := by omega
  have h1 : t.val % 25 = 24 := h
  rw [← scratch_eq m c t.val t.isLt, scr_C m c t h0 h1, outsAt0_C m c t h0 h1]
  dsimp only
  rw [oC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2]
  rfl

/-- At a row block's last vocabulary tile the validity column is written from the labels. -/
theorem out5_eq (c : Dev nD) (t : Fin cfg0.N) (h : t.val % 25 = 24) :
    (outsAt0 m c t.val t.isLt).2.2.1 = k0_pay5 (k0_pay12 (iblk m c 2 t)) := by
  have h0 : ¬t.val % 25 = 0 := by omega
  have h1 : t.val % 25 = 24 := h
  rw [outsAt0_C m c t h0 h1]
  dsimp only
  exact oC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.KernelIdeal.Chain

end
-- ==== Proof.PayIdx.lean ====
/-
  The body's arithmetic read at one row of a block, on the extended reals: the logits tile is the matrix product of
  the hidden block with the weight block (contracted over the 2048 hidden coordinates); the new running maximum is
  the larger of the old one and the tile's row maximum; the new running sum is the old one rescaled by
  `exp (old max - new max)` plus the row sum of `exp (logit - new max)`; the gold logit gains the logits of the
  columns whose number equals the row's label; at the end the loss is `(max + log sum) - gold` where the label is not
  the ignore word and `0` elsewhere, and the validity is `1` or `0` accordingly.
-/
import proofs.«423124_j4733053960281_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.PayIdx

open Cert.KernelIdeal Cert.KernelIdeal.Gen Idealize.ShloMosaic.ValueIdx

/-! ## Layout, comparison and reduction operations read at an index -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison "equal" gives the bit `1` exactly at equal words. -/
private theorem cmpi_eq_one_iff {w : Nat} (a b : BitVec w) : IntOp.cmpi .eq a b = 1#1 ↔ a = b := by
  have hb : ∀ c : Bool, BitVec.ofBool c = 1#1 ↔ c = true := fun c => by cases c <;> decide
  unfold IntOp.cmpi
  rw [hb, beq_iff_eq]

/-- The comparison "not equal" gives the bit `1` exactly at different words. -/
private theorem cmpi_ne_one_iff {w : Nat} (a b : BitVec w) : IntOp.cmpi .ne a b = 1#1 ↔ a ≠ b := by
  have hb : ∀ c : Bool, BitVec.ofBool c = 1#1 ↔ c = true := fun c => by cases c <;> decide
  unfold IntOp.cmpi
  rw [hb, bne_iff_ne]

/-- A select on a bit that is `1` exactly when `P` holds is the `if` on `P`. -/
private theorem select_of_iff {α : Type} {c : BitVec 1} {P : Prop} [Decidable P] (h : c = 1#1 ↔ P) (x y : α) :
    Scalar.select c x y = if P then x else y := by
  unfold Scalar.select
  by_cases hP : P
  · rw [if_pos hP]; exact if_pos (h.mpr hP)
  · rw [if_neg hP]; exact if_neg (fun hc => hP (h.mp hc))

/-- The source index of a row reduction of a `[1024, 1280]` array over result row `p` with column `q` inserted. -/
private theorem lift_ix1 (h : S1024x1280.Reduces [1] S1024) (p : Fin 1024) (q : Fin 1280) :
    h.lift (ix1 p) q = ix2 p q := by
  funext a
  match a with
  | ⟨0, _⟩ => exact Fin.ext rfl
  | ⟨1, _⟩ => exact Fin.ext rfl

/-- The lane sum of a `[1024, 1280]` array at row `p` is the sum of the row. -/
private theorem rowSum_apply (v : FVec Ideal S1024x1280 .f32) (h : S1024x1280.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 1280, v (ix2 p q) := by
  refine (Ideal.multiReduction_add_single v 0x00000000#32 h hφ hacc (ix1 p)).trans ?_
  show ∑ q : Fin 1280, v (h.lift (ix1 p) q) = _
  exact Finset.sum_congr rfl fun q _ => congrArg v (lift_ix1 h p q)

/-- The word `0xFF800000` is minus infinity. -/
private theorem ofBits_neg_inf_f32 : Ideal.ofBits .f32 0xFF800000#32 = ⊥ := by
  simp [Ideal.ofBits, Ideal.ieee]

/-- The lane maximum of a `[1024, 1280]` array at row `p` is the fold of `max` from `⊥` over the row. -/
private theorem rowMax_apply (v : FVec Ideal S1024x1280 .f32) (h : S1024x1280.Reduces [1] S1024) (hφ : FKind.Formats .f32)
    (hacc : (0xFF800000#32 : BitVec 32) = FKind.maximumf.neutral .f32 hφ) (p : Fin 1024) :
    multiReduction (F := Ideal) .maximumf [1] S1024 v 0xFF800000#32 h hφ hacc (ix1 p)
      = (Finset.univ : Finset (Fin 1280)).fold max ⊥ (fun q => v (ix2 p q)) := by
  refine (Ideal.multiReduction_maximumf_single v 0xFF800000#32 h hφ hacc (ix1 p)).trans ?_
  show (Finset.univ : Finset (Fin 1280)).fold max (Ideal.ofBits .f32 0xFF800000#32) (fun q => v (h.lift (ix1 p) q)) = _
  have hf : (fun q : Fin 1280 => v (h.lift (ix1 p) q)) = fun q => v (ix2 p q) :=
    funext fun q => congrArg v (lift_ix1 h p q)
  rw [ofBits_neg_inf_f32]
  exact congrArg (fun f : Fin 1280 → EReal => (Finset.univ : Finset (Fin 1280)).fold max ⊥ f) hf

/-- The left operand's index of the product at its row axis: the output's row. -/
private theorem lhs_dot_0 (j : S1024x1280.Idx) (k : dot_S1024x2048_S1280x2048_S1024x1280_1_1_0_0_n_n.contr.Idx) :
    (dot_S1024x2048_S1280x2048_S1024x1280_1_1_0_0_n_n.lhsIdx j k 0).val = (j 0).val := by
  rfl

/-- The left operand's index at its contracted axis: the contraction coordinate. -/
private theorem lhs_dot_1 (j : S1024x1280.Idx) (k : dot_S1024x2048_S1280x2048_S1024x1280_1_1_0_0_n_n.contr.Idx) :
    (dot_S1024x2048_S1280x2048_S1024x1280_1_1_0_0_n_n.lhsIdx j k 1).val = (k ⟨0, Nat.one_pos⟩).val :=
  DotDims.lhsIdx_val_of_single (cl := 1) _ rfl j k

/-- The right operand's index at its row axis: the output's column. -/
private theorem rhs_dot_0 (j : S1024x1280.Idx) (k : dot_S1024x2048_S1280x2048_S1024x1280_1_1_0_0_n_n.contr.Idx) :
    (dot_S1024x2048_S1280x2048_S1024x1280_1_1_0_0_n_n.rhsIdx j k 0).val = (j 1).val := by
  rfl

/-- The right operand's index at its contracted axis: the contraction coordinate. -/
private theorem rhs_dot_1 (j : S1024x1280.Idx) (k : dot_S1024x2048_S1280x2048_S1024x1280_1_1_0_0_n_n.contr.Idx) :
    (dot_S1024x2048_S1280x2048_S1024x1280_1_1_0_0_n_n.rhsIdx j k 1).val = (k ⟨0, Nat.one_pos⟩).val :=
  DotDims.rhsIdx_val_of_single (cr := 1) _ rfl j k

/-! ## The payloads -/

/-- The logits tile at row `p`, column `q`: the sum over the hidden coordinate of the products. -/
theorem pay9_apply (x0 : FVec Ideal S1024x2048 .bf16) (x1 : FVec Ideal S1280x2048 .bf16) (p : Fin 1024) (q : Fin 1280) :
    k0_pay9 (F := Ideal) x0 x1 (ix2 p q) = ∑ k : Fin 2048, x0 (ix2 p k) * x1 (ix2 q k) := by
  unfold k0_pay9
  rw [shapeCast_self, shapeCast_self]
  show FloatOps.matmul dot_S1024x2048_S1280x2048_S1024x1280_1_1_0_0_n_n none x0 x1 (constant S1024x1280 .f32 0x00000000#32) (ix2 p q) = _
  rw [Ideal.matmul_constant_zero_apply,
    ← Equiv.sum_comp (contrEquiv1 dot_S1024x2048_S1280x2048_S1024x1280_1_1_0_0_n_n 2048 rfl rfl).symm]
  refine Finset.sum_congr rfl fun c _ => ?_
  have hc := contrEquiv1_symm_val dot_S1024x2048_S1280x2048_S1024x1280_1_1_0_0_n_n 2048 rfl rfl c
  have hl : dot_S1024x2048_S1280x2048_S1024x1280_1_1_0_0_n_n.lhsIdx (ix2 p q)
      ((contrEquiv1 dot_S1024x2048_S1280x2048_S1024x1280_1_1_0_0_n_n 2048 rfl rfl).symm c) = ix2 p c := by
    funext ax; apply Fin.ext
    match ax with
    | ⟨0, _⟩ => exact lhs_dot_0 _ _
    | ⟨1, _⟩ => exact (lhs_dot_1 _ _).trans hc
  have hr : dot_S1024x2048_S1280x2048_S1024x1280_1_1_0_0_n_n.rhsIdx (ix2 p q)
      ((contrEquiv1 dot_S1024x2048_S1280x2048_S1024x1280_1_1_0_0_n_n 2048 rfl rfl).symm c) = ix2 q c := by
    funext ax; apply Fin.ext
    match ax with
    | ⟨0, _⟩ => exact rhs_dot_0 _ _
    | ⟨1, _⟩ => exact (rhs_dot_1 _ _).trans hc
  rw [hl, hr]

/-- The new running maximum at row `p`. -/
theorem pay10_apply (x0 : FVec Ideal S1024x2048 .bf16) (x1 : FVec Ideal S1280x2048 .bf16) (v11 : FVec Ideal S1024x1 .f32)
    (p : Fin 1024) :
    k0_pay10 (F := Ideal) x0 x1 v11 (ix2 p 0)
      = max (v11 (ix2 p 0)) ((Finset.univ : Finset (Fin 1280)).fold max ⊥ (fun q => k0_pay9 (F := Ideal) x0 x1 (ix2 p q))) := by
  unfold k0_pay10
  rw [maximumf_apply]
  refine congrArg (max (v11 (ix2 p 0))) ?_
  refine (shapeCast_a_a1_apply _ _ p 0).trans ?_
  exact rowMax_apply _ _ _ _ p

/-- Storing the new maximum stores it as it is. -/
theorem pay2_eq (v12 : FVec Ideal S1024x1 .f32) : k0_pay2 (F := Ideal) v12 = v12 := by
  unfold k0_pay2
  exact shapeCast_self _ _

/-- The labels are loaded as they are. -/
theorem pay12_eq (v27 : Vec Ideal S1024x1 .i32) : k0_pay12 (F := Ideal) v27 = v27 := by
  unfold k0_pay12
  exact shapeCast_self _ _

/-- The new running sum at row `p`. -/
theorem pay11_apply (x0 : FVec Ideal S1024x2048 .bf16) (x1 : FVec Ideal S1280x2048 .bf16)
    (v11 v13 v19 : FVec Ideal S1024x1 .f32) (p : Fin 1024) :
    k0_pay11 (F := Ideal) x0 x1 v11 v13 v19 (ix2 p 0)
      = Ideal.exp (v13 (ix2 p 0) - k0_pay10 (F := Ideal) x0 x1 v11 (ix2 p 0)) * v19 (ix2 p 0)
        + ∑ q : Fin 1280, Ideal.exp (k0_pay9 (F := Ideal) x0 x1 (ix2 p q) - k0_pay10 (F := Ideal) x0 x1 v11 (ix2 p 0)) := by
  unfold k0_pay11
  rw [shapeCast_self, addf_apply, mulf_apply]
  refine congrArg₂ (· + ·) rfl ?_
  refine (shapeCast_a_a1_apply _ _ p 0).trans ?_
  refine (rowSum_apply _ _ _ _ p).trans ?_
  refine Finset.sum_congr rfl fun q _ => ?_
  show Ideal.exp (k0_pay9 (F := Ideal) x0 x1 (ix2 p q) - broadcastTo S1024x1280 (k0_pay10 (F := Ideal) x0 x1 v11) broadcasts_S1024x1_S1024x1280 (ix2 p q)) = _
  rw [broadcastTo_a1_ab_apply]

/-- The column numbers of vocabulary tile `(i 1)`: column `q` of the tile has number `1280 · (i 1) + q`. -/
theorem pay13_apply (i : grid0.Coords) (p : Fin 1024) (q : Fin 1280) :
    k0_pay13 i (ix2 p q) = BitVec.ofNat 32 (1280 * (i 1).val + q.val) := by
  unfold k0_pay13
  show BitVec.ofNat 32 (i 1).val * 1280#32 + iota .tc S1024x1280 32 [1] iota_S1024x1280_d1_w32 (ix2 p q) = _
  rw [iota_single_apply]
  show BitVec.ofNat 32 (i 1).val * BitVec.ofNat 32 1280 + BitVec.ofNat 32 q.val = _
  rw [← BitVec.ofNat_mul, ← BitVec.ofNat_add, Nat.mul_comm]

/-- The new gold logit at row `p` of vocabulary tile `(i 1)`: column `q` of the tile has number `1280 · (i 1) + q`. -/
theorem pay1_apply (v7 : FVec Ideal S1024x1280 .f32) (v28 : IVec S1024x1 32) (i : grid0.Coords) (v39 : FVec Ideal S1024x1 .f32)
    (p : Fin 1024) :
    k0_pay1 (F := Ideal) v7 v28 (k0_pay13 i) v39 (ix2 p 0)
      = v39 (ix2 p 0) + ∑ q : Fin 1280, if BitVec.ofNat 32 (1280 * (i 1).val + q.val) = v28 (ix2 p 0) then v7 (ix2 p q) else 0 := by
  unfold k0_pay1
  rw [shapeCast_self, addf_apply]
  refine congrArg₂ (· + ·) rfl ?_
  refine (shapeCast_a_a1_apply _ _ p 0).trans ?_
  refine (rowSum_apply _ _ _ _ p).trans ?_
  refine Finset.sum_congr rfl fun q _ => ?_
  show Scalar.select (IntOp.cmpi .eq (k0_pay13 i (ix2 p q)) (broadcastTo S1024x1280 v28 broadcasts_S1024x1_S1024x1280 (ix2 p q)))
      (v7 (ix2 p q)) (Ideal.ofBits .f32 0x00000000#32) = _
  rw [broadcastTo_a1_ab_apply, pay13_apply, select_of_iff (cmpi_eq_one_iff _ _), Ideal.ofBits_zero_f32]

/-- The loss column at row `p`. -/
theorem pay4_apply (v28 : IVec S1024x1 32) (v50 v51 v54 : FVec Ideal S1024x1 .f32) (p : Fin 1024) :
    k0_pay4 (F := Ideal) v28 v50 v51 v54 (ix2 p 0)
      = if v28 (ix2 p 0) ≠ 4294967196#32 then (v50 (ix2 p 0) + Ideal.log (v51 (ix2 p 0))) - v54 (ix2 p 0) else 0 := by
  unfold k0_pay4 k0_pay3
  rw [select_apply, subf_apply, addf_apply, broadcast_apply]
  show Scalar.select (IntOp.cmpi .ne (v28 (ix2 p 0)) 4294967196#32) _ (Ideal.ofBits .f32 0x00000000#32) = _
  rw [select_of_iff (cmpi_ne_one_iff _ _), Ideal.ofBits_zero_f32]
  rfl

/-- The validity column at row `p`: the bit "the label is not the ignore word", as a real number. -/
theorem pay5_apply (v28 : IVec S1024x1 32) (p : Fin 1024) :
    k0_pay5 (F := Ideal) v28 (ix2 p 0)
      = ((((IntOp.cmpi .ne (v28 (ix2 p 0)) 4294967196#32).setWidth 32).toInt : ℝ) : EReal) := by
  unfold k0_pay5 k0_pay3
  rfl

/-- The seed of the running maximum, at every row. -/
theorem pay6_apply (p : Fin 1024) : k0_pay6 (F := Ideal) (ix2 p 0) = Ideal.ofBits .f32 0xFF333332#32 := by
  unfold k0_pay6
  rw [shapeCast_self]
  rfl

/-- The seed of the running sum is zero. -/
theorem pay7_apply (p : Fin 1024) : k0_pay7 (F := Ideal) (ix2 p 0) = 0 := by
  unfold k0_pay7
  rw [shapeCast_self]
  exact Ideal.ofBits_zero_f32

/-- The seed of the gold logit is zero. -/
theorem pay8_apply (p : Fin 1024) : k0_pay8 (F := Ideal) (ix2 p 0) = 0 := by
  unfold k0_pay8
  rw [shapeCast_self]
  exact Ideal.ofBits_zero_f32

end Cert.KernelIdeal.PayIdx

end
-- ==== Proof.Blocks.lean ====
/-
  Where the windows' blocks sit in their arrays. Grid point `t` is row block `t / 25` and vocabulary tile `t % 25`:
  the hidden block holds rows `1024 · (t / 25) + p`, the weight block vocabulary entries `1280 · (t % 25) + q`, the
  label block the same rows; the logits block written back at `t` is that rectangle of the [8192, 32000] array, and
  the loss and validity columns written back at a row block's last tile are its 1024 rows. The 200 logits blocks tile
  their array and the 8 column blocks tile theirs, so each array after the region is the one function whose
  restriction every written block is.
-/
import proofs.«423124_j4733053960281_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Row `p` of the row block of grid point `t`. -/
def rowOf (t : Fin cfg0.N) (p : Fin 1024) : Fin 8192 :=
  ⟨1024 * (t.val / 25) + p.val, by have := t.isLt; have hN : cfg0.N = 200 := N_0; have := p.isLt; omega⟩

/-- Column `q` of the vocabulary tile of grid point `t`. -/
def colOf (t : Fin cfg0.N) (q : Fin 1280) : Fin 32000 :=
  ⟨1280 * (t.val % 25) + q.val, by have := q.isLt; omega⟩

/-- The second grid coordinate of point `t` is its vocabulary tile. -/
theorem coord1 (t : Fin cfg0.N) : ((grid0.coords t) 1).val = t.val % 25 :=
  (by decide +kernel : ∀ t : Fin grid0.N, ((grid0.coords t) 1).val = t.val % 25) t

/-- The block indices of the six windows, decided once over the grid: the row windows sit at row block `t / 25`,
    the weight window at vocabulary tile `t % 25`, the logits window at both. -/
private theorem index_facts : ∀ t : Fin cfg0.N,
    (win0_0.index t (0 : Fin 2) = t.val / 25 ∧ win0_0.index t (1 : Fin 2) = 0)
    ∧ (win0_1.index t (0 : Fin 2) = t.val % 25 ∧ win0_1.index t (1 : Fin 2) = 0)
    ∧ (win0_2.index t (0 : Fin 2) = t.val / 25 ∧ win0_2.index t (1 : Fin 2) = 0)
    ∧ (win0_3.index t (0 : Fin 2) = t.val / 25 ∧ win0_3.index t (1 : Fin 2) = t.val % 25)
    ∧ (win0_4.index t (0 : Fin 2) = t.val / 25 ∧ win0_4.index t (1 : Fin 2) = 0)
    ∧ (win0_5.index t (0 : Fin 2) = t.val / 25 ∧ win0_5.index t (1 : Fin 2) = 0) :=
  (by decide +kernel : ∀ t : Fin grid0.N, _)

/-- The hidden block at point `t`. -/
theorem iblk0_apply (c : Dev nD) (t : Fin cfg0.N) (p : Fin 1024) (k : Fin 2048) :
    (iblk m c 0 t : Vec F S1024x2048 .bf16) (ix2 p k) = (V m c main_v1 : Vec F S8192x2048 .bf16) (ix2 (rowOf t p) k) := by
  obtain ⟨⟨e0, e1⟩, -⟩ := index_facts t
  unfold iblk
  rw [View.read_apply]
  show V m c main_v1 (((cfg0.win 0).blk t).view.emb (ix2 p k)) = V m c main_v1 (ix2 (rowOf t p) k)
  congr 1
  funext a
  apply Fin.ext
  match a with
  | ⟨0, _⟩ => show win0_0.index t (0 : Fin 2) * 1024 + 1 * p.val = 1024 * (t.val / 25) + p.val; rw [e0]; omega
  | ⟨1, _⟩ => show win0_0.index t (1 : Fin 2) * 2048 + 1 * k.val = k.val; rw [e1]; omega

/-- The weight block at point `t`. -/
theorem iblk1_apply (c : Dev nD) (t : Fin cfg0.N) (q : Fin 1280) (k : Fin 2048) :
    (iblk m c 1 t : Vec F S1280x2048 .bf16) (ix2 q k) = (V m c main_v2 : Vec F S32000x2048 .bf16) (ix2 (colOf t q) k) := by
  obtain ⟨-, ⟨e0, e1⟩, -⟩ := index_facts t
  unfold iblk
  rw [View.read_apply]
  show V m c main_v2 (((cfg0.win 1).blk t).view.emb (ix2 q k)) = V m c main_v2 (ix2 (colOf t q) k)
  congr 1
  funext a
  apply Fin.ext
  match a with
  | ⟨0, _⟩ => show win0_1.index t (0 : Fin 2) * 1280 + 1 * q.val = 1280 * (t.val % 25) + q.val; rw [e0]; omega
  | ⟨1, _⟩ => show win0_1.index t (1 : Fin 2) * 2048 + 1 * k.val = k.val; rw [e1]; omega

/-- The label block at point `t`. -/
theorem iblk2_apply (c : Dev nD) (t : Fin cfg0.N) (p : Fin 1024) :
    (iblk m c 2 t : Vec F S1024x1 .i32) (ix2 p 0) = (V m c main_v3 : Vec F S8192x1 .i32) (ix2 (rowOf t p) 0) := by
  obtain ⟨-, -, ⟨e0, e1⟩, -⟩ := index_facts t
  unfold iblk
  rw [View.read_apply]
  show V m c main_v3 (((cfg0.win 2).blk t).view.emb (ix2 p 0)) = V m c main_v3 (ix2 (rowOf t p) 0)
  congr 1
  funext a
  apply Fin.ext
  match a with
  | ⟨0, _⟩ => show win0_2.index t (0 : Fin 2) * 1024 + 1 * p.val = 1024 * (t.val / 25) + p.val; rw [e0]; omega
  | ⟨1, _⟩ => show win0_2.index t (1 : Fin 2) * 1 + 1 * 0 = 0; rw [e1]

/-- An index of the logits array is in point `t`'s block iff each coordinate is in the block's range on its axis. -/
private theorem mem_blk3 (t : Fin cfg0.N) (i : S8192x32000.Idx) :
    i ∈ ((cfg0.win 3).blk t).view.set ↔ ∀ a : Fin 2, win0_3.index t a * S1024x1280.size a ≤ (i a).val
      ∧ (i a).val < win0_3.index t a * S1024x1280.size a + S1024x1280.size a := by
  show i ∈ ((View.whole main_v4_0).slice (win0_3.rect t)).set ↔ _
  rw [View.set_slice_whole, Rect.mem_set_unit]
  exact Iff.rfl

/-- The logits array after the region is `G` as soon as every point's block is `G` on its rectangle. -/
theorem arr3_eq (c : Dev nD) (G : Vec F S8192x32000 .f32)
    (h : ∀ (t : Fin cfg0.N) (p : Fin 1024) (q : Fin 1280),
      (outsAt0 m c t.val t.isLt).1 (ix2 p q) = G (ix2 (rowOf t p) (colOf t q))) :
    (dats m 0 c).arrAt 3 cfg0.N = G := by
  refine (dats m 0 c).arrAt_eq_of_cover 3 G (fun t _ => ?_) (fun i => ?_)
  · obtain ⟨-, -, -, ⟨e0, e1⟩, -⟩ := index_facts t
    show (cfg0.win 3).cut (grid0.coords t) ((dats m 0 c).after 3 t) = _
    rw [after0_3]
    funext y
    have hp : (y 0).val < 1024 := (y 0).isLt
    have hq : (y 1).val < 1280 := (y 1).isLt
    have ey : (cfg0.win 3).xinj (grid0.coords t) y
        = (ix2 (⟨(y 0).val, hp⟩ : Fin 1024) (⟨(y 1).val, hq⟩ : Fin 1280) : S1024x1280.Idx) := by
      funext a
      match a with
      | ⟨0, _⟩ => rfl
      | ⟨1, _⟩ => rfl
    show (outsAt0 m c t.val t.isLt).1 ((cfg0.win 3).xinj (grid0.coords t) y) = G (((cfg0.win 3).blk t).view.emb y)
    rw [ey, h t ⟨(y 0).val, hp⟩ ⟨(y 1).val, hq⟩]
    congr 1
    funext a
    apply Fin.ext
    match a with
    | ⟨0, _⟩ =>
      show 1024 * (t.val / 25) + (y 0).val = win0_3.index t (0 : Fin 2) * 1024 + 1 * (y 0).val
      rw [e0]; omega
    | ⟨1, _⟩ =>
      show 1280 * (t.val % 25) + (y 1).val = win0_3.index t (1 : Fin 2) * 1280 + 1 * (y 1).val
      rw [e1]; omega
  · have hi0 : (i 0).val < 8192 := (i 0).isLt
    have hi1 : (i 1).val < 32000 := (i 1).isLt
    have hN : cfg0.N = 200 := N_0
    obtain ⟨t, ht⟩ : ∃ t : Fin cfg0.N, t.val = 25 * ((i 0).val / 1024) + (i 1).val / 1280 :=
      ⟨⟨25 * ((i 0).val / 1024) + (i 1).val / 1280, by omega⟩, rfl⟩
    obtain ⟨-, -, -, ⟨e0, e1⟩, -⟩ := index_facts t
    refine ⟨t, flush0_3 t, ?_⟩
    rw [mem_blk3]
    intro a
    match a with
    | ⟨0, _⟩ =>
      show win0_3.index t (0 : Fin 2) * 1024 ≤ (i 0).val ∧ (i 0).val < win0_3.index t (0 : Fin 2) * 1024 + 1024
      rw [e0, ht]; omega
    | ⟨1, _⟩ =>
      show win0_3.index t (1 : Fin 2) * 1280 ≤ (i 1).val ∧ (i 1).val < win0_3.index t (1 : Fin 2) * 1280 + 1280
      rw [e1, ht]; omega

/-- An index of the loss column is in point `t`'s block iff each coordinate is in the block's range on its axis. -/
private theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v4_1).slice (win0_4.rect t)).set ↔ _
  rw [View.set_slice_whole, Rect.mem_set_unit]
  exact Iff.rfl

/-- The loss column after the region is `G` as soon as every row block's last point leaves `G` on its rows. -/
theorem arr4_eq (c : Dev nD) (G : Vec F S8192x1 .f32)
    (h : ∀ (t : Fin cfg0.N), t.val % 25 = 24 → ∀ p : Fin 1024,
      (outsAt0 m c t.val t.isLt).2.1 (ix2 p 0) = G (ix2 (rowOf t p) 0)) :
    (dats m 0 c).arrAt 4 cfg0.N = G := by
  refine (dats m 0 c).arrAt_eq_of_cover 4 G (fun t hf => ?_) (fun i => ?_)
  · have h24 : t.val % 25 = 24 := (flush0_4 t).mp hf
    obtain ⟨-, -, -, -, ⟨e0, e1⟩, -⟩ := index_facts t
    show (cfg0.win 4).cut (grid0.coords t) ((dats m 0 c).after 4 t) = _
    rw [after0_4]
    funext y
    have hp : (y 0).val < 1024 := (y 0).isLt
    have hq : (y 1).val < 1 := (y 1).isLt
    have ey : (cfg0.win 4).xinj (grid0.coords t) y
        = (ix2 (⟨(y 0).val, hp⟩ : Fin 1024) (0 : Fin 1) : S1024x1.Idx) := by
      funext a
      match a with
      | ⟨0, _⟩ => rfl
      | ⟨1, _⟩ => apply Fin.ext; show (y 1).val = 0; omega
    show (outsAt0 m c t.val t.isLt).2.1 ((cfg0.win 4).xinj (grid0.coords t) y) = G (((cfg0.win 4).blk t).view.emb y)
    rw [ey, h t h24 ⟨(y 0).val, hp⟩]
    congr 1
    funext a
    apply Fin.ext
    match a with
    | ⟨0, _⟩ =>
      show 1024 * (t.val / 25) + (y 0).val = win0_4.index t (0 : Fin 2) * 1024 + 1 * (y 0).val
      rw [e0]; omega
    | ⟨1, _⟩ =>
      show 0 = win0_4.index t (1 : Fin 2) * 1 + 1 * (y 1).val
      rw [e1]; omega
  · have hi0 : (i 0).val < 8192 := (i 0).isLt
    have hi1 : (i 1).val < 1 := (i 1).isLt
    have hN : cfg0.N = 200 := N_0
    obtain ⟨t, ht⟩ : ∃ t : Fin cfg0.N, t.val = 25 * ((i 0).val / 1024) + 24 :=
      ⟨⟨25 * ((i 0).val / 1024) + 24, by omega⟩, rfl⟩
    obtain ⟨-, -, -, -, ⟨e0, e1⟩, -⟩ := index_facts t
    refine ⟨t, (flush0_4 t).mpr (by rw [ht]; omega), ?_⟩
    rw [mem_blk4]
    intro a
    match a with
    | ⟨0, _⟩ =>
      show win0_4.index t (0 : Fin 2) * 1024 ≤ (i 0).val ∧ (i 0).val < win0_4.index t (0 : Fin 2) * 1024 + 1024
      rw [e0, ht]; omega
    | ⟨1, _⟩ =>
      show win0_4.index t (1 : Fin 2) * 1 ≤ (i 1).val ∧ (i 1).val < win0_4.index t (1 : Fin 2) * 1 + 1
      rw [e1]; omega

/-- An index of the validity column is in point `t`'s block iff each coordinate is in the block's range on its axis. -/
private theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v4_2).slice (win0_5.rect t)).set ↔ _
  rw [View.set_slice_whole, Rect.mem_set_unit]
  exact Iff.rfl

/-- The validity column likewise. -/
theorem arr5_eq (c : Dev nD) (G : Vec F S8192x1 .f32)
    (h : ∀ (t : Fin cfg0.N), t.val % 25 = 24 → ∀ p : Fin 1024,
      (outsAt0 m c t.val t.isLt).2.2.1 (ix2 p 0) = G (ix2 (rowOf t p) 0)) :
    (dats m 0 c).arrAt 5 cfg0.N = G := by
  refine (dats m 0 c).arrAt_eq_of_cover 5 G (fun t hf => ?_) (fun i => ?_)
  · have h24 : t.val % 25 = 24 := (flush0_5 t).mp hf
    obtain ⟨-, -, -, -, -, ⟨e0, e1⟩⟩ := index_facts t
    show (cfg0.win 5).cut (grid0.coords t) ((dats m 0 c).after 5 t) = _
    rw [after0_5]
    funext y
    have hp : (y 0).val < 1024 := (y 0).isLt
    have hq : (y 1).val < 1 := (y 1).isLt
    have ey : (cfg0.win 5).xinj (grid0.coords t) y
        = (ix2 (⟨(y 0).val, hp⟩ : Fin 1024) (0 : Fin 1) : S1024x1.Idx) := by
      funext a
      match a with
      | ⟨0, _⟩ => rfl
      | ⟨1, _⟩ => apply Fin.ext; show (y 1).val = 0; omega
    show (outsAt0 m c t.val t.isLt).2.2.1 ((cfg0.win 5).xinj (grid0.coords t) y) = G (((cfg0.win 5).blk t).view.emb y)
    rw [ey, h t h24 ⟨(y 0).val, hp⟩]
    congr 1
    funext a
    apply Fin.ext
    match a with
    | ⟨0, _⟩ =>
      show 1024 * (t.val / 25) + (y 0).val = win0_5.index t (0 : Fin 2) * 1024 + 1 * (y 0).val
      rw [e0]; omega
    | ⟨1, _⟩ =>
      show 0 = win0_5.index t (1 : Fin 2) * 1 + 1 * (y 1).val
      rw [e1]; omega
  · have hi0 : (i 0).val < 8192 := (i 0).isLt
    have hi1 : (i 1).val < 1 := (i 1).isLt
    have hN : cfg0.N = 200 := N_0
    obtain ⟨t, ht⟩ : ∃ t : Fin cfg0.N, t.val = 25 * ((i 0).val / 1024) + 24 :=
      ⟨⟨25 * ((i 0).val / 1024) + 24, by omega⟩, rfl⟩
    obtain ⟨-, -, -, -, -, ⟨e0, e1⟩⟩ := index_facts t
    refine ⟨t, (flush0_5 t).mpr (by rw [ht]; omega), ?_⟩
    rw [mem_blk5]
    intro a
    match a with
    | ⟨0, _⟩ =>
      show win0_5.index t (0 : Fin 2) * 1024 ≤ (i 0).val ∧ (i 0).val < win0_5.index t (0 : Fin 2) * 1024 + 1024
      rw [e0, ht]; omega
    | ⟨1, _⟩ =>
      show win0_5.index t (1 : Fin 2) * 1 ≤ (i 1).val ∧ (i 1).val < win0_5.index t (1 : Fin 2) * 1 + 1
      rw [e1]; omega

end Cert.KernelIdeal.Blocks

end
-- ==== Proof.Rows.lean ====
/-
  The two programs' results as functions of the three argument arrays: the hidden states [4, 2048, 2048] read as
  8192 rows (row `r` is batch `r / 2048`, position `r % 2048`), the weights [32000, 2048], the labels [4, 2048].
  The logit of row `r` and vocabulary entry `v` is the sum over the hidden coordinate of hidden · weight.
-/
import Idealize.ShloMosaic.PureOps.Ideal
import Idealize.ShloMosaic.Lib.ValueIdx

noncomputable section

namespace Cert.CrossEntropy

open Idealize.ShloMosaic Idealize.ShloMosaic.ValueIdx

/-- The batch of row `r`. -/
def rowB (r : Fin 8192) : Fin 4 := ⟨r.val / 2048, by have := r.isLt; omega⟩

/-- The position of row `r` inside its batch. -/
def rowS (r : Fin 8192) : Fin 2048 := ⟨r.val % 2048, by omega⟩

/-- Row `2048 · b + s`. -/
def rowOfBS (b : Fin 4) (s : Fin 2048) : Fin 8192 := ⟨2048 * b.val + s.val, by have := b.isLt; have := s.isLt; omega⟩

theorem rowB_rowOfBS (b : Fin 4) (s : Fin 2048) : rowB (rowOfBS b s) = b := by
  apply Fin.ext; show (2048 * b.val + s.val) / 2048 = b.val; have := s.isLt; omega

theorem rowS_rowOfBS (b : Fin 4) (s : Fin 2048) : rowS (rowOfBS b s) = s := by
  apply Fin.ext; show (2048 * b.val + s.val) % 2048 = s.val; have := s.isLt; omega

theorem rowOfBS_rowB_rowS (r : Fin 8192) : rowOfBS (rowB r) (rowS r) = r := by
  apply Fin.ext; show 2048 * (r.val / 2048) + r.val % 2048 = r.val; omega

abbrev SHid : Shape := ⟨3, ![4, 2048, 2048]⟩
abbrev SWt : Shape := ⟨2, ![32000, 2048]⟩
abbrev SLab : Shape := ⟨2, ![4, 2048]⟩
abbrev SOut : Shape := ⟨3, ![4, 2048, 32000]⟩

/-- The logit of row `r` at vocabulary entry `v`. -/
def logit (A0 : SHid.Idx → EReal) (A1 : SWt.Idx → EReal) (r : Fin 8192) (v : Fin 32000) : EReal :=
  ∑ k : Fin 2048, A0 (ix3 (rowB r) (rowS r) k) * A1 (ix2 v k)

/-- The label word of row `r`. -/
def label (A2 : SLab.Idx → BitVec 32) (r : Fin 8192) : BitVec 32 := A2 (ix2 (rowB r) (rowS r))

/-- The logits array [4, 2048, 32000]. -/
def logits3 (A0 : SHid.Idx → EReal) (A1 : SWt.Idx → EReal) : SOut.Idx → EReal :=
  fun i => logit A0 A1 (rowOfBS (i 0) (i 1)) (i 2)

end Cert.CrossEntropy

end
-- ==== Proof.HostPre.lean ====
/-
  The arrays as the region finds them, on the extended reals: the hidden states reshaped to 8192 rows (the change of
  float format is the identity here), the weights as they are, the labels reshaped to a column.
-/
import proofs.«423124_j4733053960281_3_alg».proof.Proof.Gen.KernelIdeal.Frame
import proofs.«423124_j4733053960281_3_alg».proof.Proof.Rows
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.HostPre

open Cert.KernelIdeal Cert.KernelIdeal.Gen Idealize.ShloMosaic.ValueIdx Cert.CrossEntropy

variable (m : (ℓ : Loc nD τ sig) → Buf (Elt Ideal) ℓ)

/-- Row `r`, hidden coordinate `k` of the hidden block array is batch `r / 2048`, position `r % 2048` of the argument. -/
theorem V_v1_apply (c : Dev nD) (r : Fin 8192) (k : Fin 2048) :
    (V m c main_v1 : Vec Ideal S8192x2048 .bf16) (ix2 r k)
      = (m ((c : Thread nD τ).loc main_arg0) : Vec Ideal S4x2048x2048 .f32) (ix3 (rowB r) (rowS r) k) := by
  have e : @Eq (FVec Ideal S8192x2048 .bf16) (V m c main_v1)
      (truncf (F := Ideal) .bf16 (shapeCast S8192x2048 (m ((c : Thread nD τ).loc main_arg0) : FVec Ideal S4x2048x2048 .f32)
          shapeCasts_S4x2048x2048_S8192x2048) bitsLt_bf16_f32) := by
    show StableHlo.after hostOps0 (fun b => m (c, b)) (Proc.devRef .tc main_v1) = _
    after_results
    rfl
  refine (congrFun e (ix2 r k)).trans ?_
  rw [truncf_apply]
  refine shapeCast_apply _ _ (ix2 r k) (ix3 (rowB r) (rowS r) k) ?_
  rw [Shape.rowMajor_val_three, Shape.rowMajor_val_two]
  show (r.val / 2048 * 2048 + r.val % 2048) * 2048 + k.val = r.val * 2048 + k.val
  omega

/-- The weight array is the argument. -/
theorem V_v2_apply (c : Dev nD) (v : Fin 32000) (k : Fin 2048) :
    (V m c main_v2 : Vec Ideal S32000x2048 .bf16) (ix2 v k)
      = (m ((c : Thread nD τ).loc main_arg1) : Vec Ideal S32000x2048 .f32) (ix2 v k) := by
  have e : @Eq (FVec Ideal S32000x2048 .bf16) (V m c main_v2)
      (truncf (F := Ideal) .bf16 (m ((c : Thread nD τ).loc main_arg1) : FVec Ideal S32000x2048 .f32) bitsLt_bf16_f32) := by
    show StableHlo.after hostOps0 (fun b => m (c, b)) (Proc.devRef .tc main_v2) = _
    after_results
  refine (congrFun e (ix2 v k)).trans ?_
  rw [truncf_apply]

/-- Row `r` of the label column is batch `r / 2048`, position `r % 2048` of the argument. -/
theorem V_v3_apply (c : Dev nD) (r : Fin 8192) :
    (V m c main_v3 : Vec Ideal S8192x1 .i32) (ix2 r 0)
      = (m ((c : Thread nD τ).loc main_arg2) : Vec Ideal S4x2048 .i32) (ix2 (rowB r) (rowS r)) := by
  have e : @Eq (Vec Ideal S8192x1 .i32) (V m c main_v3)
      (shapeCast S8192x1 (m ((c : Thread nD τ).loc main_arg2) : Vec Ideal S4x2048 .i32) shapeCasts_S4x2048_S8192x1) := by
    show StableHlo.after hostOps0 (fun b => m (c, b)) (Proc.devRef .tc main_v3) = _
    after_results
    rfl
  refine (congrFun e (ix2 r 0)).trans ?_
  refine shapeCast_apply _ _ (ix2 r 0) (ix2 (rowB r) (rowS r)) ?_
  rw [Shape.rowMajor_val_two, Shape.rowMajor_val_two]
  show r.val / 2048 * 2048 + r.val % 2048 = r.val * 1 + 0
  omega

end Cert.KernelIdeal.HostPre

end
-- ==== Proof.SpecDefs.lean ====
/-
  Cross-entropy over a vocabulary of 32000 computed two ways, row by row, on the extended reals.

  One row has logits `x : Fin 32000 → EReal` and a label word `L`. The streaming form walks the vocabulary in 25 tiles
  of 1280 columns and keeps three numbers: a running maximum `m` (seeded with a large finite negative number), the sum
  `l` of `exp (x v - m)` over the columns seen so far (rescaled by `exp (m_old - m_new)` whenever the maximum moves), and
  the gold logit `g` (the sum over the columns seen so far of `x v` where the column's number is the label, else `0`).
  Its negative log-likelihood is `(m + log l) - g`. The direct form is `-((x L - M) - log (∑ v, exp (x v - M)))` with
  `M` the row's maximum. For real logits and a label inside the vocabulary the two agree: `l = exp (M - m) · ∑ exp (x - M)`,
  the logarithm of a product of positive reals is the sum of the logarithms, and exactly one column carries the label.
  A row whose label is the ignore word contributes `0` on both sides.
-/
import Idealize.ShloMosaic.PureOps.Ideal
import Idealize.ShloMosaic.PureOps.Ideal.Laws
import Idealize.ShloMosaic.Lib.ValueIdx

noncomputable section

namespace Cert.CrossEntropy

open Idealize.ShloMosaic

/-- The label word that marks a row as ignored: `-100` as a 32-bit word. -/
abbrev ignoreWord : BitVec 32 := 4294967196#32

/-- Column `c` of vocabulary tile `j`. -/
def col (j : Fin 25) (c : Fin 1280) : Fin 32000 := ⟨1280 * j.val + c.val, by have := j.isLt; have := c.isLt; omega⟩

/-- The streaming form's three running numbers. -/
structure Acc where
  m : EReal
  l : EReal
  g : EReal

/-- The seed of the running maximum: the finite number `-0.7 · (largest finite f32)`. -/
def negSeed : EReal := Ideal.ofBits .f32 0xFF333332#32

/-- Before the first tile. -/
def seed : Acc := ⟨negSeed, 0, 0⟩

/-- The maximum of the logits of tile `j` (a fold of `max` from `-∞`). -/
def tileMax (x : Fin 32000 → EReal) (j : Fin 25) : EReal :=
  (Finset.univ : Finset (Fin 1280)).fold max ⊥ (fun c => x (col j c))

/-- One tile folded into the running numbers. -/
def step (x : Fin 32000 → EReal) (L : BitVec 32) (j : Fin 25) (a : Acc) : Acc where
  m := max a.m (tileMax x j)
  l := Ideal.exp (a.m - max a.m (tileMax x j)) * a.l + ∑ c : Fin 1280, Ideal.exp (x (col j c) - max a.m (tileMax x j))
  g := a.g + ∑ c : Fin 1280, if BitVec.ofNat 32 (col j c).val = L then x (col j c) else 0

/-- The running numbers after the first `n` tiles (all of them once `n ≥ 25`). -/
def run (x : Fin 32000 → EReal) (L : BitVec 32) : ℕ → Acc
  | 0 => seed
  | n + 1 => if h : n < 25 then step x L ⟨n, h⟩ (run x L n) else run x L n

/-- A row's negative log-likelihood in the streaming form, `0` for an ignored row. -/
def nllStream (x : Fin 32000 → EReal) (L : BitVec 32) : EReal :=
  if L ≠ ignoreWord then ((run x L 25).m + Ideal.log (run x L 25).l) - (run x L 25).g else 0

/-- The row's maximum (a fold of `max` from `-∞`). -/
def rowMax (x : Fin 32000 → EReal) : EReal := (Finset.univ : Finset (Fin 32000)).fold max ⊥ x

/-- The row's log-softmax at column `v`. -/
def logSoftmax (x : Fin 32000 → EReal) (v : Fin 32000) : EReal :=
  (x v - rowMax x) - Ideal.log (∑ u : Fin 32000, Ideal.exp (x u - rowMax x))

/-- A row's negative log-likelihood in the direct form, for a label that is the ignore word or a column number. -/
def nllDirect (x : Fin 32000 → EReal) (L : BitVec 32) : EReal :=
  if L ≠ ignoreWord then (if h : L.toNat < 32000 then -(logSoftmax x ⟨L.toNat, h⟩) else ⊤) else 0

/-- The number of rows that count, as a 32-bit word: the sum of the rows' validity bits. -/
def validCount (lab : Fin 8192 → BitVec 32) : BitVec 32 :=
  (Finset.univ : Finset (Fin 8192)).fold IntOp.addi 0#32 (fun r => (IntOp.cmpi .ne (lab r) ignoreWord).setWidth 32)

/-- The divisor of the mean: the larger of the count and one, as a real number. -/
def denom (lab : Fin 8192 → BitVec 32) : EReal := (((IntOp.maxsi (validCount lab) 1#32).toInt : ℝ) : EReal)

/-- The mean loss in the streaming form. -/
def lossStream (x : Fin 8192 → Fin 32000 → EReal) (lab : Fin 8192 → BitVec 32) : EReal :=
  Ideal.div (∑ r : Fin 8192, nllStream (x r) (lab r)) (denom lab)

/-- The mean loss in the direct form. -/
def lossDirect (x : Fin 8192 → Fin 32000 → EReal) (lab : Fin 8192 → BitVec 32) : EReal :=
  Ideal.div (∑ r : Fin 8192, nllDirect (x r) (lab r)) (denom lab)

end Cert.CrossEntropy

end
-- ==== Proof.RowValue.lean ====
/-
  The region's three result arrays on the extended reals. Row `r` of the 8192 rows has logits
  `x r v = ∑ₖ hidden r k · weight v k` and the label word `L r`. After the grid point of row block `i` and
  vocabulary tile `j` the three carried columns hold, at row `p` of the block, the streaming form's running
  maximum, rescaled sum and gold logit of row `1024 i + p` after `j + 1` tiles (induction over the points: a row
  block's first tile starts from the seeds, every other tile from the point before, which is the same row block).
  So the logits array is `x`, the loss column the streaming negative log-likelihood of each row, and the validity
  column the bit "the label is not the ignore word".
-/
import proofs.«423124_j4733053960281_3_alg».proof.Proof.Chain
import proofs.«423124_j4733053960281_3_alg».proof.Proof.PayIdx
import proofs.«423124_j4733053960281_3_alg».proof.Proof.Blocks
import proofs.«423124_j4733053960281_3_alg».proof.Proof.HostPre
import proofs.«423124_j4733053960281_3_alg».proof.Proof.Rows
import proofs.«423124_j4733053960281_3_alg».proof.Proof.SpecDefs

noncomputable section

open Idealize.ShloMosaic Idealize.ShloMosaic.TcCoe Idealize.SL.Sem
open Idealize.ShloMosaic.Pipeline (Dat)

namespace Cert.KernelIdeal.RowValue

open Cert.KernelIdeal Cert.KernelIdeal.Gen Cert.KernelIdeal.Chain Cert.KernelIdeal.PayIdx Cert.KernelIdeal.Blocks
open Cert.KernelIdeal.HostPre Cert.CrossEntropy Idealize.ShloMosaic.ValueIdx

variable (m : (ℓ : Loc nD τ sig) → Buf (Elt Ideal) ℓ)

/-- The logits of row `r`. -/
def xrow (c : Dev nD) (r : Fin 8192) (v : Fin 32000) : EReal :=
  logit (m ((c : Thread nD τ).loc main_arg0)) (m ((c : Thread nD τ).loc main_arg1)) r v

/-- The label word of row `r`. -/
def lab (c : Dev nD) (r : Fin 8192) : BitVec 32 := label (m ((c : Thread nD τ).loc main_arg2)) r

/-- The vocabulary tile of a grid point. -/
def tileOf (t : Fin cfg0.N) : Fin 25 := ⟨t.val % 25, Nat.mod_lt _ (by norm_num)⟩

theorem col_tileOf (t : Fin cfg0.N) (q : Fin 1280) : col (tileOf t) q = colOf t q := rfl

/-- The logits tile of a point, entry by entry. -/
theorem tile_apply (c : Dev nD) (t : Fin cfg0.N) (p : Fin 1024) (q : Fin 1280) :
    k0_pay9 (F := Ideal) (iblk m c 0 t) (iblk m c 1 t) (ix2 p q) = xrow m c (rowOf t p) (colOf t q) := by
  refine (pay9_apply (iblk m c 0 t) (iblk m c 1 t) p q).trans ?_
  unfold xrow logit
  refine Finset.sum_congr rfl fun k _ => ?_
  rw [iblk0_apply m c t p k, iblk1_apply m c t q k, V_v1_apply m c (rowOf t p) k, V_v2_apply m c (colOf t q) k]

/-- The label block of a point, row by row. -/
theorem lab_apply (c : Dev nD) (t : Fin cfg0.N) (p : Fin 1024) :
    (k0_pay12 (F := Ideal) (iblk m c 2 t) : IVec S1024x1 32) (ix2 p 0) = lab m c (rowOf t p) := by
  rw [pay12_eq (iblk m c 2 t)]
  unfold lab label
  rw [iblk2_apply m c t p, V_v3_apply m c (rowOf t p)]

/-- One tile folded into columns that hold a row's running numbers gives the row's running numbers after the tile. -/
theorem upd_apply (c : Dev nD) (t : Fin cfg0.N) (p : Fin 1024) (s : Cols Ideal) (a : Acc)
    (hm : s.1 (ix2 p 0) = a.m) (hl : s.2.1 (ix2 p 0) = a.l) (hg : s.2.2 (ix2 p 0) = a.g) :
    (upd (grid0.coords t) (iblk m c 0 t) (iblk m c 1 t) (iblk m c 2 t) s).1 (ix2 p 0)
        = (step (xrow m c (rowOf t p)) (lab m c (rowOf t p)) (tileOf t) a).m
      ∧ (upd (grid0.coords t) (iblk m c 0 t) (iblk m c 1 t) (iblk m c 2 t) s).2.1 (ix2 p 0)
        = (step (xrow m c (rowOf t p)) (lab m c (rowOf t p)) (tileOf t) a).l
      ∧ (upd (grid0.coords t) (iblk m c 0 t) (iblk m c 1 t) (iblk m c 2 t) s).2.2 (ix2 p 0)
        = (step (xrow m c (rowOf t p)) (lab m c (rowOf t p)) (tileOf t) a).g := by
  have hmax : k0_pay10 (F := Ideal) (iblk m c 0 t) (iblk m c 1 t) s.1 (ix2 p 0)
      = max a.m (tileMax (xrow m c (rowOf t p)) (tileOf t)) := by
    refine (pay10_apply (iblk m c 0 t) (iblk m c 1 t) s.1 p).trans ?_
    rw [hm]
    unfold tileMax
    refine congrArg (max a.m) (congrArg (Finset.fold max ⊥ · Finset.univ) (funext fun q => ?_))
    rw [tile_apply m c t p q, col_tileOf]
  refine ⟨?_, ?_, ?_⟩
  · show k0_pay2 (F := Ideal) (k0_pay10 (F := Ideal) (iblk m c 0 t) (iblk m c 1 t) s.1) (ix2 p 0) = _
    rw [pay2_eq]
    exact hmax
  · show k0_pay11 (F := Ideal) (iblk m c 0 t) (iblk m c 1 t) s.1 s.1 s.2.1 (ix2 p 0) = _
    refine (pay11_apply (iblk m c 0 t) (iblk m c 1 t) s.1 s.1 s.2.1 p).trans ?_
    rw [hmax, hm, hl]
    show _ = Ideal.exp (a.m - max a.m (tileMax _ _)) * a.l + ∑ q : Fin 1280, Ideal.exp (_ - max a.m (tileMax _ _))
    refine congrArg (_ + ·) (Finset.sum_congr rfl fun q _ => ?_)
    rw [tile_apply m c t p q, col_tileOf]
  · show k0_pay1 (F := Ideal) (k0_pay9 (F := Ideal) (iblk m c 0 t) (iblk m c 1 t)) (k0_pay12 (F := Ideal) (iblk m c 2 t))
        (k0_pay13 (grid0.coords t)) s.2.2 (ix2 p 0) = _
    refine (pay1_apply _ _ (grid0.coords t) s.2.2 p).trans ?_
    rw [hg, lab_apply m c t p, coord1 t]
    show _ = a.g + ∑ q : Fin 1280, if BitVec.ofNat 32 (col (tileOf t) q).val = _ then _ else 0
    refine congrArg (_ + ·) (Finset.sum_congr rfl fun q _ => ?_)
    rw [tile_apply m c t p q, col_tileOf]
    rfl

/-- The columns the seeds hold are the streaming form's start. -/
theorem seed_apply (p : Fin 1024) :
    (seed (F := Ideal)).1 (ix2 p 0) = CrossEntropy.seed.m ∧ (seed (F := Ideal)).2.1 (ix2 p 0) = CrossEntropy.seed.l
      ∧ (seed (F := Ideal)).2.2 (ix2 p 0) = CrossEntropy.seed.g :=
  ⟨pay6_apply p, pay7_apply p, pay8_apply p⟩

/-- After the point of row block `i`, tile `j`, the columns hold the rows' running numbers after `j + 1` tiles. -/
theorem cols_apply (c : Dev nD) : ∀ (n : ℕ) (h : n < cfg0.N) (p : Fin 1024),
    (cols m c n h).1 (ix2 p 0) = (run (xrow m c (rowOf ⟨n, h⟩ p)) (lab m c (rowOf ⟨n, h⟩ p)) (n % 25 + 1)).m
      ∧ (cols m c n h).2.1 (ix2 p 0) = (run (xrow m c (rowOf ⟨n, h⟩ p)) (lab m c (rowOf ⟨n, h⟩ p)) (n % 25 + 1)).l
      ∧ (cols m c n h).2.2 (ix2 p 0) = (run (xrow m c (rowOf ⟨n, h⟩ p)) (lab m c (rowOf ⟨n, h⟩ p)) (n % 25 + 1)).g
  | 0, h, p => by
    have hs := seed_apply p
    have := upd_apply m c ⟨0, h⟩ p seed CrossEntropy.seed hs.1 hs.2.1 hs.2.2
    simpa [cols, run, tileOf] using this
  | n + 1, h, p => by
    have hN : cfg0.N = 200 := N_0
    by_cases h0 : (n + 1) % 25 = 0
    · have hs := seed_apply p
      have := upd_apply m c ⟨n + 1, h⟩ p seed CrossEntropy.seed hs.1 hs.2.1 hs.2.2
      have hr : run (xrow m c (rowOf ⟨n + 1, h⟩ p)) (lab m c (rowOf ⟨n + 1, h⟩ p)) ((n + 1) % 25 + 1)
          = step (xrow m c (rowOf ⟨n + 1, h⟩ p)) (lab m c (rowOf ⟨n + 1, h⟩ p)) (tileOf ⟨n + 1, h⟩) CrossEntropy.seed := by
        rw [h0]; simp [run, tileOf, h0]
      rw [hr]
      simpa [cols, h0] using this
    · have ih := cols_apply c n (Nat.lt_of_succ_lt h) p
      have hrow : rowOf (⟨n, Nat.lt_of_succ_lt h⟩ : Fin cfg0.N) p = rowOf ⟨n + 1, h⟩ p := by
        apply Fin.ext; show 1024 * (n / 25) + p.val = 1024 * ((n + 1) / 25) + p.val; omega
      rw [hrow] at ih
      have := upd_apply m c ⟨n + 1, h⟩ p (cols m c n (Nat.lt_of_succ_lt h)) _ ih.1 ih.2.1 ih.2.2
      have hk : (n + 1) % 25 = n % 25 + 1 := by omega
      have hlt : n % 25 + 1 < 25 := by omega
      have hr : run (xrow m c (rowOf ⟨n + 1, h⟩ p)) (lab m c (rowOf ⟨n + 1, h⟩ p)) ((n + 1) % 25 + 1)
          = step (xrow m c (rowOf ⟨n + 1, h⟩ p)) (lab m c (rowOf ⟨n + 1, h⟩ p)) (tileOf ⟨n + 1, h⟩)
              (run (xrow m c (rowOf ⟨n + 1, h⟩ p)) (lab m c (rowOf ⟨n + 1, h⟩ p)) (n % 25 + 1)) := by
        rw [hk]
        show (if h' : n % 25 + 1 < 25 then step _ _ ⟨n % 25 + 1, h'⟩ _ else _) = _
        rw [dif_pos hlt]
        congr 1
        apply Fin.ext
        show n % 25 + 1 = (n + 1) % 25
        omega
      rw [hr]
      simpa [cols, h0] using this

/-- The logits array after the region. -/
def logitsArr (c : Dev nD) : Vec Ideal S8192x32000 .f32 :=
  fun i => xrow m c ⟨(i 0).val, idx2_lt0 i⟩ ⟨(i 1).val, idx2_lt1 i⟩

/-- The loss column after the region. -/
def nllArr (c : Dev nD) : Vec Ideal S8192x1 .f32 :=
  fun i => nllStream (xrow m c ⟨(i 0).val, idx2_lt0 i⟩) (lab m c ⟨(i 0).val, idx2_lt0 i⟩)

/-- The validity column after the region. -/
def validArr (c : Dev nD) : Vec Ideal S8192x1 .f32 :=
  fun i => ((((IntOp.cmpi .ne (lab m c ⟨(i 0).val, idx2_lt0 i⟩) ignoreWord).setWidth 32).toInt : ℝ) : EReal)

theorem arr3 (c : Dev nD) : (dats m 0 c).arrAt 3 cfg0.N = logitsArr m c :=
  arr3_eq m c (logitsArr m c) fun t p q => by
    rw [out3_eq m c t]
    exact tile_apply m c t p q

theorem arr4 (c : Dev nD) : (dats m 0 c).arrAt 4 cfg0.N = nllArr m c :=
  arr4_eq m c (nllArr m c) fun t ht p => by
    rw [out4_eq m c t ht]
    refine (pay4_apply _ _ _ _ p).trans ?_
    obtain ⟨h1, h2, h3⟩ := cols_apply m c t.val t.isLt p
    rw [h1, h2, h3, lab_apply m c t p, ht]
    rfl

theorem arr5 (c : Dev nD) : (dats m 0 c).arrAt 5 cfg0.N = validArr m c :=
  arr5_eq m c (validArr m c) fun t ht p => by
    rw [out5_eq m c t ht]
    refine (pay5_apply _ p).trans ?_
    rw [lab_apply m c t p]
    rfl

end Cert.KernelIdeal.RowValue

end
-- ==== Proof.Tail.lean ====
/-
  The lines of the program after the region: the validity column converted to integers and summed, the loss column
  summed, the quotient of the loss sum by the larger of the count and one; and the logits array reshaped to
  [4, 2048, 32000].
-/
import proofs.«423124_j4733053960281_3_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- The mean: the loss column's sum over the larger of the validity count and one. -/
def meanLoss (nll valid : Vec F S8192x1 .f32) : Vec F S_ .f32 :=
  Host.divf (Host.reduceAdd nll (constant (F := F) S_ .f32 0x00000000#32) reducesTo_S8192x1_S_d0_1 h_S_)
    (sitofp (F := F) .f32 (maxsi (Host.reduce IntOp.addi (fptosi 32 valid) (constantI S_ 32 0#32) reducesTo_S8192x1_S_d0_1 h_S_)
      (constantI S_ 32 1#32)))

theorem tail_loss (c : Dev nD) :
    Pipeline.afterTail₀ cfgs (dats m) 0 (V0 m) [hostOps1] c main_v10
      = meanLoss ((dats m 0 c).arrAt 4 cfg0.N) ((dats m 0 c).arrAt 5 cfg0.N) := by
  unfold Pipeline.afterTail₀
  show StableHlo.after hostOps1 _ (Proc.devRef .tc main_v10) = _
  after_results
  have e4 := Pipeline.withArrays_arr spec0 launch0.win.arr_inj c (V0 m c) (fun w => (dats m 0 c).arrAt w (cfgs 0).N) 4
  have e5 := Pipeline.withArrays_arr spec0 launch0.win.arr_inj c (V0 m c) (fun w => (dats m 0 c).arrAt w (cfgs 0).N) 5
  unfold meanLoss
  rw [show (Pipeline.withArrays (cfgs 0).spec c (V0 m c) (fun w => (dats m 0 c).arrAt w (cfgs 0).N) (Proc.tc.devRef main_v4_1)) = (dats m 0 c).arrAt 4 cfg0.N from e4,
          show (Pipeline.withArrays (cfgs 0).spec c (V0 m c) (fun w => (dats m 0 c).arrAt w (cfgs 0).N) (Proc.tc.devRef main_v4_2)) = (dats m 0 c).arrAt 5 cfg0.N from e5]

theorem tail_logits (c : Dev nD) :
    Pipeline.afterTail₀ cfgs (dats m) 0 (V0 m) [hostOps1] c main_v11
      = shapeCast S4x2048x32000 ((dats m 0 c).arrAt 3 cfg0.N) shapeCasts_S8192x32000_S4x2048x32000 := by
  unfold Pipeline.afterTail₀
  show StableHlo.after hostOps1 _ (Proc.devRef .tc main_v11) = _
  after_results
  have e3 := Pipeline.withArrays_arr spec0 launch0.win.arr_inj c (V0 m c) (fun w => (dats m 0 c).arrAt w (cfgs 0).N) 3
  rw [show (Pipeline.withArrays (cfgs 0).spec c (V0 m c) (fun w => (dats m 0 c).arrAt w (cfgs 0).N) (Proc.tc.devRef main_v4_0)) = (dats m 0 c).arrAt 3 cfg0.N from e3]
  rfl

end Cert.KernelIdeal.Tail

end
-- ==== Proof.TailValue.lean ====
/-
  The lines after the region on the extended reals. The host's sum of a column is `0 +` the sum of its 8192 entries;
  a validity entry is the real number `0` or `1` of a bit, so converting it to an integer gives the bit back and the
  integer sum is the count of valid rows; hence the quotient is the streaming form's mean loss. The reshape of the
  [8192, 32000] logits to [4, 2048, 32000] puts row `2048 b + s` at `(b, s)`.
-/
import proofs.«423124_j4733053960281_3_alg».proof.Proof.Tail
import proofs.«423124_j4733053960281_3_alg».proof.Proof.Rows
import proofs.«423124_j4733053960281_3_alg».proof.Proof.SpecDefs
import Idealize.ShloMosaic.Lib.ValueIdx
import Idealize.ShloMosaic.Lib.Pipeline.Value
import Idealize.ShloMosaic.PureOps.Ideal.Laws
import Idealize.ShloMosaic.Lib.StableHlo.Predicate

noncomputable section

open Idealize.ShloMosaic Idealize.ShloMosaic.TcCoe Idealize.SL.Sem
open Idealize.ShloMosaic.Pipeline (Dat)

namespace Cert.KernelIdeal.TailValue

open Cert.KernelIdeal Cert.KernelIdeal.Gen Cert.KernelIdeal.Tail Cert.CrossEntropy Idealize.ShloMosaic.ValueIdx

/-- A column's rows: row `r` is the index `(r, 0)`. -/
private def colEquiv : Fin 8192 ≃ S8192x1.Idx where
  toFun r := ix2 r 0
  invFun i := i 0
  left_inv _ := rfl
  right_inv i := by
    have h1 : i 1 = (0 : Fin 1) := Fin.ext (Nat.lt_one_iff.mp (idx2_lt1 i))
    exact (congrArg (ix2 (i 0)) h1.symm).trans (eq_ix2 i).symm

/-- A sum over a column is the sum over its rows. -/
private theorem sum_col (f : S8192x1.Idx → EReal) : ∑ i, f i = ∑ r : Fin 8192, f (ix2 r 0) :=
  (Equiv.sum_comp colEquiv f).symm

/-- A fold over a column is the fold over its rows. -/
private theorem fold_col (f : S8192x1.Idx → BitVec 32) (b : BitVec 32) :
    (Finset.univ : Finset S8192x1.Idx).fold IntOp.addi b f
      = (Finset.univ : Finset (Fin 8192)).fold IntOp.addi b (fun r => f (ix2 r 0)) := by
  rw [← Finset.map_univ_equiv colEquiv, Finset.fold_map]
  rfl

/-- Converting the real number of a widened bit to a 32-bit integer gives the widened bit back. -/
private theorem fptosi_bit (c : BitVec 1) :
    Ideal.fptosi 32 ((((c.setWidth 32).toInt : ℝ)) : EReal) = c.setWidth 32 := by
  rcases BitVec.eq_zero_or_eq_one c with rfl | rfl
  · show Ideal.fptosi 32 ((((0 : ℤ) : ℝ)) : EReal) = 0#32
    rw [Ideal.fptosi, Ideal.toIntClamped_coe]
    norm_num
  · show Ideal.fptosi 32 ((((1 : ℤ) : ℝ)) : EReal) = 1#32
    rw [Ideal.fptosi, Ideal.toIntClamped_coe]
    norm_num

/-- The integer sum of the converted validity column is the count of valid rows. -/
private theorem count_eq (lab : Fin 8192 → BitVec 32) (valid : Vec Ideal S8192x1 .f32)
    (hv : ∀ r : Fin 8192, valid (ix2 r 0) = ((((IntOp.cmpi .ne (lab r) ignoreWord).setWidth 32).toInt : ℝ) : EReal))
    (j : S_.Idx) :
    Host.reduce IntOp.addi (fptosi (F := Ideal) (φ := .f32) 32 valid) (constantI S_ 32 0#32) reducesTo_S8192x1_S_d0_1 h_S_ j = validCount lab := by
  rw [Host.reduce_eq_fold]
  rw [Finset.filter_true_of_mem fun i _ => funext fun b => b.elim0]
  rw [fold_col]
  unfold validCount
  refine Finset.fold_congr fun r _ => ?_
  show Ideal.fptosi 32 (valid (ix2 r 0)) = _
  rw [hv r, fptosi_bit]

/-- The mean of a loss column holding each row's streaming negative log-likelihood over a validity column holding
    each row's validity bit is the streaming form's mean loss. -/
theorem meanLoss_eq (x : Fin 8192 → Fin 32000 → EReal) (lab : Fin 8192 → BitVec 32)
    (nll valid : Vec Ideal S8192x1 .f32)
    (hn : ∀ r : Fin 8192, nll (ix2 r 0) = nllStream (x r) (lab r))
    (hv : ∀ r : Fin 8192, valid (ix2 r 0) = ((((IntOp.cmpi .ne (lab r) ignoreWord).setWidth 32).toInt : ℝ) : EReal)) :
    (meanLoss (F := Ideal) nll valid : S_.Idx → EReal) = fun _ => lossStream x lab := by
  funext j
  have hnum : Ideal.hostReduceAdd reducesTo_S8192x1_S_d0_1 nll (Ideal.ofBits .f32 0x00000000#32) j
      = ∑ r : Fin 8192, nllStream (x r) (lab r) := by
    rw [Ideal.hostReduceAdd_total reducesTo_S8192x1_S_d0_1 (fun b => b.elim0), Ideal.ofBits_zero_f32, zero_add, sum_col]
    exact Finset.sum_congr rfl fun r _ => hn r
  show Ideal.div (Ideal.hostReduceAdd reducesTo_S8192x1_S_d0_1 nll (Ideal.ofBits .f32 0x00000000#32) j)
      ((((IntOp.maxsi (Host.reduce IntOp.addi (fptosi (F := Ideal) (φ := .f32) 32 valid) (constantI S_ 32 0#32) reducesTo_S8192x1_S_d0_1 h_S_ j) 1#32).toInt : ℝ)) : EReal)
    = lossStream x lab
  rw [hnum, count_eq lab valid hv j]
  rfl

/-- The logits reshaped to [4, 2048, 32000]. -/
theorem reshape_logits (A0 : SHid.Idx → EReal) (A1 : SWt.Idx → EReal) (G : Vec Ideal S8192x32000 .f32)
    (hG : ∀ (r : Fin 8192) (v : Fin 32000), G (ix2 r v) = logit A0 A1 r v) :
    (shapeCast S4x2048x32000 G shapeCasts_S8192x32000_S4x2048x32000 : S4x2048x32000.Idx → EReal) = logits3 A0 A1 := by
  funext i
  obtain ⟨b, s, v, rfl⟩ : ∃ (b : Fin 4) (s : Fin 2048) (v : Fin 32000), i = ix3 b s v := ⟨_, _, _, eq_ix3 i⟩
  -- the entry at (b, s, v) and the entry of the [8192, 32000] array at (2048 b + s, v) have the same row-major position
  rw [shapeCast_apply G shapeCasts_S8192x32000_S4x2048x32000 (ix3 b s v) (ix2 (rowOfBS b s) v) (by
    rw [Shape.rowMajor_val_three, Shape.rowMajor_val_two]
    show (2048 * b.val + s.val) * 32000 + v.val = (b.val * 2048 + s.val) * 32000 + v.val
    rw [Nat.mul_comm 2048 b.val]), hG]
  rfl

end Cert.KernelIdeal.TailValue

end
-- ==== Proof.KernelValue.lean ====
/-
  The idealized kernel's run, read: its loss result is the streaming form's mean loss of the rows' logits and
  labels, its logits result the contraction of hidden states with weights, the arguments unchanged.
-/
import proofs.«423124_j4733053960281_3_alg».proof.Proof.RowValue
import proofs.«423124_j4733053960281_3_alg».proof.Proof.Tail
import proofs.«423124_j4733053960281_3_alg».proof.Proof.TailValue

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.RowValue Cert.KernelIdeal.Tail Cert.KernelIdeal.TailValue
open Cert.CrossEntropy Idealize.ShloMosaic.ValueIdx

variable (m : (ℓ : Loc nD τ sig) → Buf (Elt Ideal) ℓ) (ρ : Dev nD → PrngReg)

/-- The loss the lines after the region compute from the region's columns. -/
theorem loss_eq (c : Dev nD) :
    (meanLoss (F := Ideal) ((dats m 0 c).arrAt 4 cfg0.N) ((dats m 0 c).arrAt 5 cfg0.N) : S_.Idx → EReal)
      = fun _ => lossStream (xrow m c) (lab m c) := by
  rw [arr4 m c, arr5 m c]
  exact meanLoss_eq (xrow m c) (lab m c) (nllArr m c) (validArr m c) (fun _ => rfl) (fun _ => rfl)

/-- The logits result. -/
theorem logits_eq (c : Dev nD) :
    (shapeCast S4x2048x32000 ((dats m 0 c).arrAt 3 cfg0.N) shapeCasts_S8192x32000_S4x2048x32000 : S4x2048x32000.Idx → EReal)
      = logits3 (m ((c : Thread nD τ).loc main_arg0)) (m ((c : Thread nD τ).loc main_arg1)) := by
  rw [arr3 m c]
  exact reshape_logits _ _ (logitsArr m c) (fun _ _ => rfl)

/-- The run. -/
theorem run : θ_run defs (onTc (τ := τ) (main (F := Ideal))) ⟨m, fun _ => 0, ρ⟩ fun r => ∀ c : Dev nD,
      (r.2.mem ((c.tc : Thread nD τ).loc main_v10) : S_.Idx → EReal) = (fun _ => lossStream (xrow m c) (lab m c))
      ∧ (r.2.mem ((c.tc : Thread nD τ).loc main_v11) : S4x2048x32000.Idx → EReal)
          = logits3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans ((tail_loss m c).trans (loss_eq m c)),
      ((h c).2 main_v11 (Pipeline.mem_restRefs_of main_v11 (by decide) (by decide))).trans ((tail_logits m c).trans (logits_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefLogp.lean ====
/-
  The reference's log-softmax stage, entry by entry: row `r`'s maximum is the fold of `max` from `-∞` over its
  32000 logits, the shifted logits are `logit - max`, and the result is `shifted - log (∑ exp shifted)`.
  The logits themselves are the contraction of hidden states with weights, read through the reshape to 8192 rows.
-/
import proofs.«423124_j4733053960281_3_alg».proof.Proof.RefRead
import proofs.«423124_j4733053960281_3_alg».proof.Proof.Rows
import proofs.«423124_j4733053960281_3_alg».proof.Proof.SpecDefs
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.ReferenceIdeal.RefLogp

open Cert.ReferenceIdeal Cert.ReferenceIdeal.Gen Cert.ReferenceIdeal.ReadP Cert.CrossEntropy Idealize.ShloMosaic.ValueIdx

/-- The reference's logits, read through the reshape to 8192 rows. -/
theorem logits2_apply (x0 : (⟨S4x2048x2048, .f32⟩ : BufTy).Contents (Elt Ideal)) (x1 : (⟨S32000x2048, .f32⟩ : BufTy).Contents (Elt Ideal))
    (r : Fin 8192) (v : Fin 32000) :
    (val_main_v1 (F := Ideal) x0 x1 : S8192x32000.Idx → EReal) (ix2 r v) = logit x0 x1 r v := by
  rw [val_main_v1_apply, val_main_v0_apply]
  unfold logit
  refine Finset.sum_congr rfl fun k _ => ?_
  congr 1
  · refine congrArg x0 (funext fun a => Fin.ext ?_)
    match a with
    | ⟨0, _⟩ => show (r.val * 32000 + v.val) / 65536000 = r.val / 2048; have := v.isLt; omega
    | ⟨1, _⟩ => show (r.val * 32000 + v.val) / 32000 % 2048 = r.val % 2048; have := v.isLt; omega
    | ⟨2, _⟩ => rfl
  · refine congrArg x1 (funext fun a => Fin.ext ?_)
    match a with
    | ⟨0, _⟩ => show (r.val * 32000 + v.val) % 32000 = v.val; have := v.isLt; omega
    | ⟨1, _⟩ => rfl

/-- The reference's logits array is the contraction over the hidden coordinate. -/
theorem logits_eq (x0 : (⟨S4x2048x2048, .f32⟩ : BufTy).Contents (Elt Ideal)) (x1 : (⟨S32000x2048, .f32⟩ : BufTy).Contents (Elt Ideal)) :
    (val_main_v0 (F := Ideal) x0 x1 : S4x2048x32000.Idx → EReal) = logits3 x0 x1 := by
  funext i
  obtain ⟨b, s, v, rfl⟩ : ∃ (b : Fin 4) (s : Fin 2048) (v : Fin 32000), i = ix3 b s v := ⟨i 0, i 1, i 2, eq_ix3 i⟩
  rw [val_main_v0_apply]
  show _ = logit x0 x1 (rowOfBS b s) v
  unfold logit
  rw [rowB_rowOfBS, rowS_rowOfBS]
  refine Finset.sum_congr rfl fun k _ => ?_
  congr 1
  · refine congrArg x0 (funext fun a => Fin.ext ?_)
    match a with
    | ⟨0, _⟩ => rfl
    | ⟨1, _⟩ => rfl
    | ⟨2, _⟩ => rfl
  · refine congrArg x1 (funext fun a => Fin.ext ?_)
    match a with
    | ⟨0, _⟩ => rfl
    | ⟨1, _⟩ => rfl

/-- The 32-bit float word of `-∞`. -/
private theorem ofBits_negInf : Ideal.ofBits .f32 0xFF800000#32 = (⊥ : EReal) := by
  simp [Ideal.ofBits, Ideal.ieee]

/-- The reduced index `r` with column `v` put back on the dropped axis is `(r, v)`. -/
private theorem lift_row (h : S8192x32000.Reduces [1] S8192) (r : Fin 8192) (v : Fin 32000) :
    h.lift (ix1 r) v = ix2 r v := by
  funext c
  apply Fin.ext
  match c with
  | ⟨0, _⟩ => rfl
  | ⟨1, _⟩ => rfl

/-- The max-reduce of an array over its columns, from `-∞`, at row `r`: the fold of `max` over the row. -/
private theorem reduceMax_row (y : S8192x32000.Idx → EReal) (r : Fin 8192) :
    Host.reduce (FloatOps.maximumf (F := Ideal) (φ := .f32)) y (val_main_call0_cst (F := Ideal))
        reducesTo_S8192x32000_S8192_d1 h_S_ (ix1 r)
      = rowMax fun v => y (ix2 r v) := by
  have h : S8192x32000.Reduces [1] S8192 := by decide
  refine (Host.reduce_eq_fold_single (FloatOps.maximumf (F := Ideal) (φ := .f32)) y _
    reducesTo_S8192x32000_S8192_d1 h h_S_ (ix1 r)).trans ?_
  have hf : (y ∘ h.lift (ix1 r)) = fun v : Fin 32000 => y (ix2 r v) :=
    funext fun v => congrArg y (lift_row h r v)
  show Finset.fold max (Ideal.ofBits .f32 0xFF800000#32) (y ∘ h.lift (ix1 r)) (Finset.univ : Finset (Fin 32000)) = _
  rw [hf, ofBits_negInf]
  rfl

/-- The row maximum the reference subtracts: the fold of `max` from `-∞` over the row's logits. -/
private theorem rowMax_apply (x0 : (⟨S4x2048x2048, .f32⟩ : BufTy).Contents (Elt Ideal)) (x1 : (⟨S32000x2048, .f32⟩ : BufTy).Contents (Elt Ideal))
    (r : Fin 8192) :
    (val_main_call0_v2 (F := Ideal) x0 x1 : S8192.Idx → EReal) (ix1 r) = rowMax (logit x0 x1 r) := by
  rw [val_main_call0_v2_apply, val_main_call0_v1_apply, val_main_call0_cst_0_apply]
  unfold val_main_call0_v0
  rw [reduceMax_row, Ideal.maximumf_def, Ideal.ofBits_def, ofBits_negInf, max_bot_left]
  exact congrArg rowMax (funext fun v => logits2_apply x0 x1 r v)

/-- The shifted logits: logit minus the row's maximum. -/
private theorem shifted_apply (x0 : (⟨S4x2048x2048, .f32⟩ : BufTy).Contents (Elt Ideal)) (x1 : (⟨S32000x2048, .f32⟩ : BufTy).Contents (Elt Ideal))
    (r : Fin 8192) (v : Fin 32000) :
    (val_main_call0_v5 (F := Ideal) x0 x1 : S8192x32000.Idx → EReal) (ix2 r v)
      = logit x0 x1 r v - rowMax (logit x0 x1 r) := by
  rw [val_main_call0_v5_apply, val_main_call0_v4_apply, val_main_call0_v3_apply, logits2_apply]
  have e : idx_main_call0_v3 (idx_main_call0_v4 (ix2 r v)) = ix1 r :=
    funext fun a => by match a with | ⟨0, _⟩ => rfl
  rw [e, rowMax_apply]
  rfl

/-- The row's sum of exponentials of the shifted logits. -/
private theorem sumExp_apply (x0 : (⟨S4x2048x2048, .f32⟩ : BufTy).Contents (Elt Ideal)) (x1 : (⟨S32000x2048, .f32⟩ : BufTy).Contents (Elt Ideal))
    (r : Fin 8192) :
    (val_main_call0_v7 (F := Ideal) x0 x1 : S8192.Idx → EReal) (ix1 r)
      = ∑ u : Fin 32000, Ideal.exp (logit x0 x1 r u - rowMax (logit x0 x1 r)) := by
  rw [val_main_call0_v7_apply, val_main_call0_cst_1_apply, Ideal.ofBits_def, Ideal.ofBits_zero_f32, zero_add]
  refine Finset.sum_congr rfl fun u _ => ?_
  have e : idx_main_call0_v7 (ix1 r) u = ix2 r u :=
    funext fun a => by match a with | ⟨0, _⟩ => rfl | ⟨1, _⟩ => rfl
  rw [e, val_main_call0_v6_apply, shifted_apply]
  rfl

/-- The reference's log-softmax at row `r`, vocabulary entry `v`. -/
theorem logp_apply (x0 : (⟨S4x2048x2048, .f32⟩ : BufTy).Contents (Elt Ideal)) (x1 : (⟨S32000x2048, .f32⟩ : BufTy).Contents (Elt Ideal))
    (r : Fin 8192) (v : Fin 32000) :
    (val_main_v3 (F := Ideal) x0 x1 : S8192x32000.Idx → EReal) (ix2 r v) = logSoftmax (logit x0 x1 r) v := by
  rw [val_main_v3_apply, shifted_apply, val_main_call0_v10_apply, val_main_call0_v9_apply, val_main_call0_v8_apply]
  have e : idx_main_call0_v8 (idx_main_call0_v10 (ix2 r v)) = ix1 r :=
    funext fun a => by match a with | ⟨0, _⟩ => rfl
  rw [e, sumExp_apply, Ideal.subf_def, Ideal.hostUnary_log_def]
  unfold logSoftmax
  rfl

end Cert.ReferenceIdeal.RefLogp

end
-- ==== Proof.RefValue.lean ====
/-
  The reference's two results as functions of the argument arrays, on the extended reals: the logits array is the
  contraction of hidden states with weights over the hidden coordinate; the loss is the mean over the rows that count
  of `-log_softmax(logits)[label]`, the rows' labels read through `where(label = -100, 0, label)`, a gather along the
  vocabulary axis (in range for a label that is `-100` or a vocabulary entry) and the mask `label ≠ -100`; the
  divisor is the larger of the number of rows that count and one.
-/
import proofs.«423124_j4733053960281_3_alg».proof.Proof.RefLogp
import proofs.«423124_j4733053960281_3_alg».proof.Proof.Rows
import proofs.«423124_j4733053960281_3_alg».proof.Proof.SpecDefs
import Idealize.ShloMosaic.Lib.StableHlo.Predicate
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.ReadP Cert.ReferenceIdeal.RefLogp Cert.CrossEntropy Idealize.ShloMosaic.ValueIdx

section Rows

variable (x0 : (⟨S4x2048x2048, .f32⟩ : BufTy).Contents (Elt Ideal)) (x1 : (⟨S32000x2048, .f32⟩ : BufTy).Contents (Elt Ideal))
  (x2 : (⟨S4x2048, .i32⟩ : BufTy).Contents (Elt Ideal))

/-- Rank-1 indices of extent \`n\` are their coordinates. -/
private def ixEquiv1 (n : Nat) : Fin n ≃ (⟨1, ![n]⟩ : Shape).Idx where
  toFun := ix1
  invFun := fun j => j 0
  left_inv := fun _ => rfl
  right_inv := fun j => (eq_ix1 j).symm

/-- The word the reference gathers at in row \`r\`: the label, with the ignore word replaced by \`0\`. -/
private def safeLabel (r : Fin 8192) : BitVec 32 :=
  if label x2 r = ignoreWord then 0#32 else label x2 r

/-- The gathered word is a vocabulary entry, for a label that is the ignore word or a vocabulary entry. -/
private theorem safe_lt (hL : ∀ r : Fin 8192, label x2 r = ignoreWord ∨ (label x2 r).toNat < 32000) (r : Fin 8192) :
    (safeLabel x2 r).toNat < 32000 := by
  unfold safeLabel
  split
  · decide
  · rename_i h
    rcases hL r with h' | h'
    · exact absurd h' h
    · exact h'

/-- The labels reshaped to 8192 rows: row \`r\` is batch \`r / 2048\`, position \`r % 2048\`. -/
private theorem lab_apply (r : Fin 8192) : val_main_v2 (F := Ideal) x2 (ix1 r) = label x2 r := by
  rw [val_main_v2_apply]
  show x2 (idx_main_v2 (ix1 r)) = x2 (ix2 (rowB r) (rowS r))
  exact congrArg x2 (funext fun a => Fin.ext (by match a with | ⟨0, _⟩ => rfl | ⟨1, _⟩ => rfl))

/-- The mask of the rows that count. -/
private theorem mask_apply (r : Fin 8192) :
    val_main_v12 (F := Ideal) x2 (ix1 r) = IntOp.cmpi .ne (label x2 r) ignoreWord := by
  rw [val_main_v12_apply, lab_apply, val_main_v11_apply, val_main_c_1_apply]

/-- \`where(label = -100, 0, label)\`. -/
private theorem safe_apply (r : Fin 8192) : val_main_v6 (F := Ideal) x2 (ix1 r) = safeLabel x2 r := by
  rw [val_main_v6_apply, val_main_v5_apply, lab_apply, val_main_v4_apply, val_main_c_apply, val_main_call1_v1_apply,
    val_main_call1_v0_apply, val_main_c_0_apply]
  unfold safeLabel
  by_cases h : label x2 r = ignoreWord
  · rw [if_pos h, StableHlo.Predicate.cmpi_eq_iff.mpr h, select_one]
  · rw [if_neg h, eq_zero_of_ne_one (fun e => h (StableHlo.Predicate.cmpi_eq_iff.mp e)), select_zero]

/-- The gathered word as a column. -/
private theorem v7_apply (r : Fin 8192) : val_main_v7 (F := Ideal) x2 (ix2 r (0 : Fin 1)) = safeLabel x2 r := by
  rw [val_main_v7_apply]
  exact safe_apply x2 r

/-- \`take_along_axis\` adds the axis length to a negative index: the gathered word is not negative. -/
private theorem v4c_apply (hL : ∀ r : Fin 8192, label x2 r = ignoreWord ∨ (label x2 r).toNat < 32000) (r : Fin 8192) :
    val_main_call2_v4 (F := Ideal) x2 (ix2 r (0 : Fin 1)) = safeLabel x2 r := by
  rw [val_main_call2_v4_apply, val_main_call2_v1_apply, v7_apply, val_main_call2_v0_apply, val_main_call2_c_apply]
  have h := safe_lt x2 hL r
  have hz : IntOp.cmpi .slt (safeLabel x2 r) 0#32 = 0#1 := eq_zero_of_ne_one (fun e =>
    Nat.not_lt_zero _ ((StableHlo.Predicate.slt_iff_toNat (by omega) (by decide)).mp e))
  rw [hz, select_zero]

/-- The start indices of the gather. -/
private theorem v5c_apply (hL : ∀ r : Fin 8192, label x2 r = ignoreWord ∨ (label x2 r).toNat < 32000) (r : Fin 8192) :
    val_main_call2_v5 (F := Ideal) x2 (ix3 r (0 : Fin 1) (0 : Fin 1)) = safeLabel x2 r := by
  rw [val_main_call2_v5_apply]
  have hi : idx_main_call2_v5 (ix3 r (0 : Fin 1) (0 : Fin 1)) = ix2 r (0 : Fin 1) := funext fun a => Fin.ext (by
    match a with
    | ⟨0, _⟩ => show ((r.val * 1 + 0) * 1 + 0) / 1 = r.val; omega
    | ⟨1, _⟩ => rfl)
  rw [hi]
  exact v4c_apply x2 hL r

end Rows

section Gather

variable (x0 : (⟨S4x2048x2048, .f32⟩ : BufTy).Contents (Elt Ideal)) (x1 : (⟨S32000x2048, .f32⟩ : BufTy).Contents (Elt Ideal))
  (x2 : (⟨S4x2048, .i32⟩ : BufTy).Contents (Elt Ideal))

/-- Every index of the [8192, 1, 1] start-index array is (its row, 0, 0). -/
private theorem eq_ix3_row (i : S8192x1x1.Idx) : i = ix3 (⟨(i 0).val, (i 0).isLt⟩ : Fin 8192) (0 : Fin 1) (0 : Fin 1) :=
  funext fun a => Fin.ext (by
    match a with
    | ⟨0, _⟩ => rfl
    | ⟨1, _⟩ => show (i 1).val = 0; have h : (i 1).val < 1 := (i 1).isLt; omega
    | ⟨2, _⟩ => show (i 2).val = 0; have h : (i 2).val < 1 := (i 2).isLt; omega)

/-- The gather's in-bounds test \`0 ≤ word ≤ 31999\` holds at every index. -/
private theorem inb_apply (hL : ∀ r : Fin 8192, label x2 r = ignoreWord ∨ (label x2 r).toNat < 32000) (i : S8192x1x1.Idx) :
    val_main_call2_v11 (F := Ideal) x2 i = 1#1 := by
  rw [eq_ix3_row i]
  generalize (⟨(i 0).val, (i 0).isLt⟩ : Fin 8192) = r
  rw [val_main_call2_v11_apply, val_main_call2_v7_apply, val_main_call2_v10_apply, v5c_apply x2 hL r, val_main_call2_v6_apply,
    val_main_call2_c_2_apply, val_main_call2_v9_apply, val_main_call2_v8_apply, val_main_call2_c_1_apply]
  have h := safe_lt x2 hL r
  have h9 : (31999#32 : BitVec 32).toNat = 31999 := rfl
  rw [(StableHlo.Predicate.sge_iff_toNat (by omega) (by decide)).mpr (Nat.zero_le _),
    (StableHlo.Predicate.sle_iff_toNat (by omega) (by decide)).mpr (by omega)]
  rfl

/-- A fold of \`and\` from \`1\` over bits that are all \`1\` is \`1\`. -/
private theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons_of_mem hi))]
    rfl

/-- The in-bounds mask, reduced by \`and\` over the index vector's axis, is \`1\` in every row. -/
private theorem inb_all (hL : ∀ r : Fin 8192, label x2 r = ignoreWord ∨ (label x2 r).toNat < 32000) (j : S8192x1.Idx) :
    val_main_call2_v12 (F := Ideal) x2 j = 1#1 := by
  unfold val_main_call2_v12
  rw [Host.reduce_eq_fold]
  exact fold_andi_one _ _ (fun i _ => inb_apply x2 hL i)

/-- The gather along the vocabulary axis, batched over the rows: row \`r\` reads the operand's row \`r\` at the start index
    of row \`r\`, read signed and clamped into \`[0, 31999]\`. -/
private theorem gather_apply (x : S8192x32000.Idx → EReal) (idx : IVec S8192x1x1 32) (r : Fin 8192) :
    Host.gather gather_S8192x32000_S8192x1x1_S8192x1_n_1_0_0_1_2_11 x idx (ix2 r (0 : Fin 1))
      = x (ix2 r (⟨min (idx (ix3 r (0 : Fin 1) (0 : Fin 1))).toInt.toNat 31999, by omega⟩ : Fin 32000)) := by
  unfold Host.gather
  congr 1
  funext a
  refine Fin.ext ?_
  match a with
  | ⟨0, _⟩ =>
    show gather_S8192x32000_S8192x1x1_S8192x1_n_1_0_0_1_2_11.start (ix2 r (0 : Fin 1)) idx 0
      + gather_S8192x32000_S8192x1x1_S8192x1_n_1_0_0_1_2_11.batchCoord (ix2 r (0 : Fin 1)) 0
      + gather_S8192x32000_S8192x1x1_S8192x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S8192x32000_S8192x1x1_S8192x1_n_1_0_0_1_2_11.operandBatchingDims from
      List.mem_singleton.mpr rfl)]
    rfl
  | ⟨1, _⟩ =>
    show gather_S8192x32000_S8192x1x1_S8192x1_n_1_0_0_1_2_11.start (ix2 r (0 : Fin 1)) idx 1
      + gather_S8192x32000_S8192x1x1_S8192x1_n_1_0_0_1_2_11.batchCoord (ix2 r (0 : Fin 1)) 1
      + gather_S8192x32000_S8192x1x1_S8192x1_n_1_0_0_1_2_11.offCoord (ix2 r (0 : Fin 1)) 1 = min (idx (ix3 r (0 : Fin 1) (0 : Fin 1))).toInt.toNat 31999
    rw [GatherDims.batchCoord_eq_zero _ _ _ (show (1 : Fin 2) ∉ gather_S8192x32000_S8192x1x1_S8192x1_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x32000_S8192x1x1_S8192x1_n_1_0_0_1_2_11.startIndexMap from
      List.mem_singleton.mpr rfl)]
    have hsi : gather_S8192x32000_S8192x1x1_S8192x1_n_1_0_0_1_2_11.siIdx (ix2 r (0 : Fin 1))
        ⟨List.idxOf (1 : Fin 2) gather_S8192x32000_S8192x1x1_S8192x1_n_1_0_0_1_2_11.startIndexMap,
          List.idxOf_lt_length_iff.2 (List.mem_singleton.mpr rfl)⟩ = ix3 r (0 : Fin 1) (0 : Fin 1) := by
      funext b
      refine Fin.ext ?_
      match b with
      | ⟨0, _⟩ => rfl
      | ⟨1, _⟩ => rfl
      | ⟨2, _⟩ => rfl
    rw [hsi]
    rfl

end Gather

section Loss

variable (x0 : (⟨S4x2048x2048, .f32⟩ : BufTy).Contents (Elt Ideal)) (x1 : (⟨S32000x2048, .f32⟩ : BufTy).Contents (Elt Ideal))
  (x2 : (⟨S4x2048, .i32⟩ : BufTy).Contents (Elt Ideal))

/-- \`take_along_axis\` in row \`r\`: the log-softmax of the row at the gathered word (in bounds, so neither clamped nor
    replaced by the fill value). -/
private theorem take_apply (hL : ∀ r : Fin 8192, label x2 r = ignoreWord ∨ (label x2 r).toNat < 32000) (r : Fin 8192) :
    val_main_v8 (F := Ideal) x0 x1 x2 (ix2 r (0 : Fin 1))
      = logSoftmax (logit x0 x1 r) ⟨(safeLabel x2 r).toNat, safe_lt x2 hL r⟩ := by
  rw [val_main_v8_apply, inb_all x2 hL, select_one]
  unfold val_main_call2_v13
  rw [gather_apply]
  have h := safe_lt x2 hL r
  have hcol : (⟨min (val_main_call2_v5 (F := Ideal) x2 (ix3 r (0 : Fin 1) (0 : Fin 1))).toInt.toNat 31999, by omega⟩ : Fin 32000)
      = ⟨(safeLabel x2 r).toNat, h⟩ := Fin.ext (by
    show min (val_main_call2_v5 (F := Ideal) x2 (ix3 r (0 : Fin 1) (0 : Fin 1))).toInt.toNat 31999 = (safeLabel x2 r).toNat
    rw [v5c_apply x2 hL r, StableHlo.Predicate.toInt_eq_toNat_of_lt (by omega), Int.toNat_natCast]
    omega)
  rw [hcol]
  exact logp_apply x0 x1 r _

/-- Row \`r\`'s term of the loss's numerator. -/
private theorem nll_apply (hL : ∀ r : Fin 8192, label x2 r = ignoreWord ∨ (label x2 r).toNat < 32000) (r : Fin 8192) :
    val_main_v13 (F := Ideal) x0 x1 x2 (ix1 r) = nllDirect (logit x0 x1 r) (label x2 r) := by
  rw [val_main_v13_apply, mask_apply]
  unfold nllDirect
  by_cases h : label x2 r = ignoreWord
  · -- an ignored row: the mask bit is 0, the term is the zero constant
    have hz : IntOp.cmpi .ne (label x2 r) ignoreWord = 0#1 := by rw [h]; rfl
    rw [hz, select_zero, if_neg (not_not.mpr h), val_main_call3_v1_apply, val_main_call3_v0_apply, val_main_cst_apply]
    exact Ideal.ofBits_zero_f32
  · -- a row that counts: the negated log-softmax at the label
    have hlt : (label x2 r).toNat < 32000 := (hL r).resolve_left h
    have ho : IntOp.cmpi .ne (label x2 r) ignoreWord = 1#1 := by
      unfold IntOp.cmpi
      rw [StableHlo.Predicate.ofBool_eq_one_iff]
      simpa using h
    have hs : safeLabel x2 r = label x2 r := if_neg h
    rw [ho, select_one, if_pos h, dif_pos hlt, val_main_v10_apply, Ideal.hostNegf_def, Ideal.negf_def, val_main_v9_apply]
    have hi : idx_main_v9 (ix1 r) = ix2 r (0 : Fin 1) := funext fun a => Fin.ext (by
      match a with
      | ⟨0, _⟩ => show r.val / 1 = r.val; omega
      | ⟨1, _⟩ => rfl)
    rw [hi, take_apply x0 x1 x2 hL r]
    congr 2
    exact Fin.ext (by show (safeLabel x2 r).toNat = (label x2 r).toNat; rw [hs])

/-- The number of rows that count. -/
private theorem count_apply (i : S_.Idx) : val_main_v16 (F := Ideal) x2 i = validCount (label x2) := by
  unfold val_main_v16 validCount
  rw [Host.reduce_eq_fold]
  have hf : (Finset.univ.filter fun k : S8192.Idx => reducesTo_S8192_S_d0.drop k = i) = Finset.univ :=
    Finset.filter_true_of_mem (fun k _ => funext fun a => a.elim0)
  rw [hf, ← Finset.map_univ_equiv (ixEquiv1 8192), Finset.fold_map]
  refine Finset.fold_congr (fun r _ => ?_)
  show val_main_v15 (F := Ideal) x2 (ix1 r) = _
  rw [val_main_v15_apply, mask_apply]

end Loss

/-- The reference's loss is the direct form of the mean cross-entropy, for labels that are the ignore word or a
    vocabulary entry. -/
theorem loss_eq (x0 : (⟨S4x2048x2048, .f32⟩ : BufTy).Contents (Elt Ideal)) (x1 : (⟨S32000x2048, .f32⟩ : BufTy).Contents (Elt Ideal))
    (x2 : (⟨S4x2048, .i32⟩ : BufTy).Contents (Elt Ideal))
    (hL : ∀ r : Fin 8192, label x2 r = ignoreWord ∨ (label x2 r).toNat < 32000) :
    (val_main_v19 (F := Ideal) x0 x1 x2 : S_.Idx → EReal) = fun _ => lossDirect (logit x0 x1) (label x2) := by
  funext i
  -- the numerator: the zero constant plus the sum over the 8192 rows of the rows' terms
  have hn : val_main_v14 (F := Ideal) x0 x1 x2 i = ∑ r : Fin 8192, nllDirect (logit x0 x1 r) (label x2 r) := by
    rw [val_main_v14_apply, val_main_cst_2_apply, Ideal.ofBits_def, Ideal.ofBits_zero_f32, zero_add,
      ← Equiv.sum_comp (ixEquiv1 8192)]
    exact Finset.sum_congr rfl fun r _ => nll_apply x0 x1 x2 hL r
  -- the divisor: the larger of the count and one, converted to a real number
  have hd : val_main_v18 (F := Ideal) x2 i = denom (label x2) := by
    rw [val_main_v18_apply, val_main_v17_apply, count_apply, val_main_c_4_apply]
    rfl
  rw [val_main_v19_apply, Ideal.hostDivf_def, hn, hd]
  rfl

/-- The reference's run, read: the loss and the logits as those functions of the arguments, the arguments unchanged. -/
theorem run (m : (ℓ : Loc nD τ sig) → Buf (Elt Ideal) ℓ) (ρ : Dev nD → PrngReg)
    (hL : ∀ (c : Dev nD) (r : Fin 8192), label (m ((c.tc : Thread nD τ).loc main_arg2)) r = ignoreWord
      ∨ (label (m ((c.tc : Thread nD τ).loc main_arg2)) r).toNat < 32000) :
    θ_run defs (onTc (τ := τ) (main (F := Ideal))) ⟨m, fun _ => 0, ρ⟩ fun r => ∀ c : Dev nD,
      (r.2.mem ((c.tc : Thread nD τ).loc main_v19) : S_.Idx → EReal)
          = (fun _ => lossDirect (logit (m ((c.tc : Thread nD τ).loc main_arg0)) (m ((c.tc : Thread nD τ).loc main_arg1)))
              (label (m ((c.tc : Thread nD τ).loc main_arg2))))
      ∧ (r.2.mem ((c.tc : Thread nD τ).loc main_v0) : S4x2048x32000.Idx → EReal)
          = logits3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v19_eq _ c).trans (loss_eq _ _ _ (hL c))),
      (h c).2.1.trans ((val_main_v0_eq _ _).trans (logits_eq _ _)), (h c).2.2⟩)
    (Cert.ReferenceIdeal.ValueP.run (F := Ideal) m ρ)

end Cert.ReferenceIdeal.RefValue

end
-- ==== Proof.PreDecode.lean ====
/-
  What the precondition says: every hidden state and every weight is a real number (its absolute value is below
  `+∞`), and every label is the ignore word `-100` or a vocabulary entry `0 ≤ label < 32000`.
-/
import proofs.«423124_j4733053960281_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- The f32 pattern with all exponent bits set and no fraction bit denotes `+∞`. -/
private theorem ofBits_inf : Ideal.ofBits .f32 0x7F800000#32 = (⊤ : EReal) := by
  simp [Ideal.ofBits, Ideal.ieee]

/-- An extended real whose absolute value `max x (-x)` lies strictly below `+∞` is a real number:
    at `⊥` and at `⊤` the maximum is `⊤`. -/
private theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A word that equals `-100`, or is signed-nonnegative and signed-below `32000`: in the second case its
    sign bit is clear, so the signed reading is the unsigned one and the word is below `32000`. -/
private theorem label_of_word (w : BitVec 32)
    (h : IntOp.ori (IntOp.cmpi .eq w 4294967196#32)
          (IntOp.andi (IntOp.cmpi .sge w 0#32) (IntOp.cmpi .slt w 32000#32)) = 1#1) :
    w = 4294967196#32 ∨ w.toNat < 32000 := by
  rcases IntOp.ori_eq_one.1 h with h | h
  · exact Or.inl (IntOp.cmpi_eq.1 h)
  · obtain ⟨h1, h2⟩ := IntOp.andi_eq_one.1 h
    have h1' := IntOp.cmpi_sge.1 h1
    have h2' := IntOp.cmpi_slt.1 h2
    refine Or.inr ?_
    have e0 : (0#32 : BitVec 32).toInt = 0 := by decide
    have e1 : (32000#32 : BitVec 32).toInt = 32000 := by decide
    rw [e0] at h1'
    rw [e1] at h2'
    have hw := w.isLt
    rw [BitVec.toInt_eq_toNat_cond] at h1' h2'
    split at h1' <;> omega

variable [Cert.Pre_finite_inputs.Facts]

/-- The precondition, decoded. -/
theorem of_pre (a0 : FVec Ideal S4x2048x2048 .f32) (a1 : FVec Ideal S32000x2048 .f32) (a2 : IVec S4x2048 32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, a2 i = 4294967196#32 ∨ (a2 i).toNat < 32000) := by
  haveI : Subsingleton S_.Idx := ⟨fun a b => funext fun d => d.elim0⟩
  have h0 := congrFun h ValueIdx.ix0
  dsimp only [fn, fn_part1] at h0
  -- the result is the conjunction of the three `all`s
  change IntOp.andi (IntOp.andi _ _) _ = 1#1 at h0
  obtain ⟨h01, hC⟩ := IntOp.andi_eq_one.1 h0
  obtain ⟨hA, hB⟩ := IntOp.andi_eq_one.1 h01
  -- each `all` that is 1 had a 1 at every index
  have eA := fun i => Host.reduce_andi_all _ _ _ _ _ hA i
  have eB := fun i => Host.reduce_andi_all _ _ _ _ _ hB i
  have eC := fun i => Host.reduce_andi_all _ _ _ _ _ hC i
  refine ⟨fun i => real_of_abs_lt_inf (a0 i) ?_, fun i => real_of_abs_lt_inf (a1 i) ?_,
    fun i => label_of_word (a2 i) ?_⟩
  · -- `|a0 i| < +∞`: the broadcast scalar reads the constant
    have e := eA i
    rw [ValueIdx.cmpf_apply, StableHlo.Predicate.bcast_scalar _ Facts.h_S_] at e
    exact e
  · have e := eB i
    rw [ValueIdx.cmpf_apply, StableHlo.Predicate.bcast_scalar _ Facts.h_S_] at e
    exact e
  · -- the label's word against the three broadcast constants
    have e := eC i
    change IntOp.ori (IntOp.cmpi .eq (a2 i) _) (IntOp.andi (IntOp.cmpi .sge (a2 i) _) (IntOp.cmpi .slt (a2 i) _)) = 1#1 at e
    rw [StableHlo.Predicate.bcast_scalar _ Facts.h_S_, StableHlo.Predicate.bcast_scalar _ Facts.h_S_,
      StableHlo.Predicate.bcast_scalar _ Facts.h_S_] at e
    exact e

end Cert.PreDecode

end
-- ==== Proof.Spec.lean ====
/-
  Cross-entropy over a vocabulary of 32000 computed two ways, row by row, on the extended reals.

  One row has logits `x : Fin 32000 → EReal` and a label word `L`. The streaming form walks the vocabulary in 25 tiles
  of 1280 columns and keeps three numbers: a running maximum `m` (seeded with a large finite negative number), the sum
  `l` of `exp (x v - m)` over the columns seen so far (rescaled by `exp (m_old - m_new)` whenever the maximum moves), and
  the gold logit `g` (the sum over the columns seen so far of `x v` where the column's number is the label, else `0`).
  Its negative log-likelihood is `(m + log l) - g`. The direct form is `-((x L - M) - log (∑ v, exp (x v - M)))` with
  `M` the row's maximum. For real logits and a label inside the vocabulary the two agree: `l = exp (M - m) · ∑ exp (x - M)`,
  the logarithm of a product of positive reals is the sum of the logarithms, and exactly one column carries the label.
  A row whose label is the ignore word contributes `0` on both sides.
-/
import Idealize.ShloMosaic.PureOps.Ideal
import Idealize.ShloMosaic.PureOps.Ideal.Laws
import Idealize.ShloMosaic.Lib.ValueIdx
import proofs.«423124_j4733053960281_3_alg».proof.Proof.SpecDefs

noncomputable section

namespace Cert.CrossEntropy

open Idealize.ShloMosaic

/-! ### Real numbers inside the extended reals -/

/-- A finite sum of real numbers, taken in the extended reals, is the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals. -/
private theorem coe_max' (a b : ℝ) : max (a : EReal) (b : EReal) = ((max a b : ℝ) : EReal) :=
  (EReal.coe_strictMono.monotone.map_max).symm

/-- A choice between a real number and zero, taken in the extended reals. -/
private theorem ite_coe (p : Prop) [Decidable p] (a : ℝ) :
    (if p then (a : EReal) else 0) = ((if p then a else 0 : ℝ) : EReal) := by
  split_ifs <;> simp

/-- The fold of `max` from `-∞` over a nonempty finite family of real numbers is a real number: it is below `+∞`
    because every member is, and above `-∞` because some member is. -/
private theorem fold_max_real {ι : Type*} (s : Finset ι) (hs : s.Nonempty) (f : ι → ℝ) :
    ∃ t : ℝ, s.fold max (⊥ : EReal) (fun c => ((f c : ℝ) : EReal)) = (t : EReal) := by
  have h1 : s.fold max (⊥ : EReal) (fun c => ((f c : ℝ) : EReal)) ≠ ⊤ := by
    apply ne_of_lt
    rw [Finset.fold_max_lt]
    exact ⟨bot_lt_top, fun c _ => EReal.coe_lt_top _⟩
  have h2 : s.fold max (⊥ : EReal) (fun c => ((f c : ℝ) : EReal)) ≠ ⊥ := by
    apply ne_of_gt
    rw [Finset.lt_fold_max]
    obtain ⟨c, hc⟩ := hs
    exact Or.inr ⟨c, hc, EReal.bot_lt_coe _⟩
  exact ⟨_, (EReal.coe_toReal h1 h2).symm⟩

/-- The seed of the running maximum is a real number (its exponent field is not all ones). -/
private theorem negSeed_real : ∃ s : ℝ, negSeed = (s : EReal) := by
  have h : negSeed ≠ ⊤ ∧ negSeed ≠ ⊥ := by
    simp [negSeed, Ideal.ofBits, Ideal.ieee, -EReal.coe_mul]
  exact ⟨_, (EReal.coe_toReal h.1 h.2).symm⟩

/-- A tile's maximum of real logits is a real number. -/
private theorem tileMax_real (xr : Fin 32000 → ℝ) (j : Fin 25) :
    ∃ t : ℝ, tileMax (fun v => ((xr v : ℝ) : EReal)) j = (t : EReal) :=
  fold_max_real Finset.univ ⟨⟨0, by norm_num⟩, Finset.mem_univ _⟩ (fun c => xr (col j c))

/-- A row's maximum of real logits is a real number. -/
private theorem rowMax_real (xr : Fin 32000 → ℝ) :
    ∃ M : ℝ, rowMax (fun v => ((xr v : ℝ) : EReal)) = (M : EReal) :=
  fold_max_real Finset.univ ⟨⟨0, by norm_num⟩, Finset.mem_univ _⟩ xr

/-! ### The 25 tiles of 1280 columns are the 32000 columns -/

/-- Tile and offset against column number: `(j, c) ↦ 1280 j + c` with inverse `v ↦ (v / 1280, v % 1280)`. -/
private def colEquiv : Fin 25 × Fin 1280 ≃ Fin 32000 where
  toFun p := col p.1 p.2
  invFun v := (⟨v.val / 1280, by have := v.isLt; omega⟩, ⟨v.val % 1280, by omega⟩)
  left_inv := by
    rintro ⟨j, c⟩
    have := j.isLt; have := c.isLt
    ext <;> simp [col] <;> omega
  right_inv := by
    intro v
    ext
    simp [col]
    omega

/-- A sum tile by tile is the sum over all columns. -/
private theorem sum_col (F : Fin 32000 → ℝ) : ∑ j : Fin 25, ∑ c : Fin 1280, F (col j c) = ∑ v, F v := by
  rw [← Fintype.sum_prod_type' (fun j c => F (col j c))]
  exact Fintype.sum_equiv colEquiv _ _ (fun _ => rfl)

/-- The tiles with number below `n`. -/
private def tilesBelow (n : ℕ) : Finset (Fin 25) := Finset.univ.filter (fun j => j.val < n)

private theorem tilesBelow_zero : tilesBelow 0 = ∅ := by
  ext j; simp [tilesBelow]

private theorem tilesBelow_succ (n : ℕ) (h : n < 25) : tilesBelow (n + 1) = insert (⟨n, h⟩ : Fin 25) (tilesBelow n) := by
  ext j; simp [tilesBelow, Fin.ext_iff]; omega

private theorem not_mem_tilesBelow (n : ℕ) (h : n < 25) : (⟨n, h⟩ : Fin 25) ∉ tilesBelow n := by
  simp [tilesBelow]

private theorem tilesBelow_all : tilesBelow 25 = Finset.univ := by
  ext j; simp [tilesBelow]

/-! ### The running numbers are real, and what they are -/

/-- After `n` tiles the running maximum is some real number `m`, the running sum is the sum over the columns seen so far
    of `exp (x v - m)`, and the gold logit is the sum over those columns of `x v` where the column's number is the label.
    Moving the maximum from `m` to `m'` multiplies each old term `exp (x v - m)` by `exp (m - m')`, which gives
    `exp (x v - m')`. -/
private theorem run_real (xr : Fin 32000 → ℝ) (L : BitVec 32) (n : ℕ) (hn : n ≤ 25) :
    ∃ m : ℝ, run (fun v => ((xr v : ℝ) : EReal)) L n =
      ⟨(m : EReal),
       ((∑ j ∈ tilesBelow n, ∑ c : Fin 1280, Real.exp (xr (col j c) - m) : ℝ) : EReal),
       ((∑ j ∈ tilesBelow n, ∑ c : Fin 1280,
          (if BitVec.ofNat 32 (col j c).val = L then xr (col j c) else 0) : ℝ) : EReal)⟩ := by
  induction n with
  | zero =>
    obtain ⟨s, hs⟩ := negSeed_real
    exact ⟨s, by simp [run, seed, hs, tilesBelow_zero]⟩
  | succ n ih =>
    have h : n < 25 := by omega
    obtain ⟨m, hm⟩ := ih (by omega)
    obtain ⟨t, ht⟩ := tileMax_real xr ⟨n, h⟩
    refine ⟨max m t, ?_⟩
    have hrun : run (fun v => ((xr v : ℝ) : EReal)) L (n + 1)
        = step (fun v => ((xr v : ℝ) : EReal)) L ⟨n, h⟩ (run (fun v => ((xr v : ℝ) : EReal)) L n) := by
      simp [run, h]
    rw [hrun, hm]
    unfold step
    simp only [ht, coe_max']
    rw [Acc.mk.injEq]
    refine ⟨rfl, ?_, ?_⟩
    · simp only [← EReal.coe_sub, Ideal.exp_coe, ← EReal.coe_mul, coe_sum, ← EReal.coe_add]
      rw [EReal.coe_eq_coe_iff, tilesBelow_succ n h, Finset.sum_insert (not_mem_tilesBelow n h), add_comm]
      congr 1
      rw [Finset.mul_sum]
      refine Finset.sum_congr rfl fun j _ => ?_
      rw [Finset.mul_sum]
      refine Finset.sum_congr rfl fun c _ => ?_
      rw [← Real.exp_add]
      congr 1
      ring
    · simp only [ite_coe, coe_sum, ← EReal.coe_add]
      rw [EReal.coe_eq_coe_iff, tilesBelow_succ n h, Finset.sum_insert (not_mem_tilesBelow n h), add_comm]

/-- Exactly one column carries a label below 32000: the sum over all columns of `x v` where the column's number is the
    label, else `0`, is the logit at the label. -/
private theorem gold_sum (xr : Fin 32000 → ℝ) (L : BitVec 32) (h : L.toNat < 32000) :
    ∑ v : Fin 32000, (if BitVec.ofNat 32 v.val = L then xr v else 0) = xr ⟨L.toNat, h⟩ := by
  rw [Finset.sum_eq_single (⟨L.toNat, h⟩ : Fin 32000)]
  · simp
  · intro v _ hv
    rw [if_neg]
    intro hEq
    apply hv
    have h1 := congrArg BitVec.toNat hEq
    rw [BitVec.toNat_ofNat] at h1
    have h2 := v.isLt
    ext
    simp only
    omega
  · intro h'
    exact absurd (Finset.mem_univ _) h'

/-- Changing the shift: for any real numbers `m` and `M`, `m + log (∑ exp (x - m)) = M + log (∑ exp (x - M))`, because the
    first sum is `exp (M - m)` times the second and both are positive. -/
private theorem shift_log_sum (xr : Fin 32000 → ℝ) (m M : ℝ) :
    m + Real.log (∑ v, Real.exp (xr v - m)) = M + Real.log (∑ v, Real.exp (xr v - M)) := by
  have hpos : 0 < ∑ v, Real.exp (xr v - M) :=
    Finset.sum_pos (fun v _ => Real.exp_pos _) ⟨⟨0, by norm_num⟩, Finset.mem_univ _⟩
  have hS : ∑ v, Real.exp (xr v - m) = Real.exp (M - m) * ∑ v, Real.exp (xr v - M) := by
    rw [Finset.mul_sum]
    refine Finset.sum_congr rfl fun v _ => ?_
    rw [← Real.exp_add]
    congr 1
    ring
  rw [hS, Real.log_mul (Real.exp_ne_zero _) (ne_of_gt hpos), Real.log_exp]
  ring

/-- For real logits and a label that is the ignore word or a column number, the two forms of a row's
    negative log-likelihood agree. -/
theorem nllStream_eq_nllDirect (x : Fin 32000 → EReal) (hx : ∀ v, ∃ a : ℝ, x v = (a : EReal)) (L : BitVec 32)
    (hL : L = ignoreWord ∨ L.toNat < 32000) : nllStream x L = nllDirect x L := by
  obtain ⟨xr, rfl⟩ : ∃ xr : Fin 32000 → ℝ, x = fun v => ((xr v : ℝ) : EReal) :=
    ⟨fun v => (hx v).choose, funext fun v => (hx v).choose_spec⟩
  by_cases hI : L = ignoreWord
  · unfold nllStream nllDirect
    rw [if_neg (not_not.mpr hI), if_neg (not_not.mpr hI)]
  · have hlt : L.toNat < 32000 := hL.resolve_left hI
    obtain ⟨m, hm⟩ := run_real xr L 25 le_rfl
    obtain ⟨M, hM⟩ := rowMax_real xr
    have hposm : 0 < ∑ v, Real.exp (xr v - m) :=
      Finset.sum_pos (fun v _ => Real.exp_pos _) ⟨⟨0, by norm_num⟩, Finset.mem_univ _⟩
    have hposM : 0 < ∑ v, Real.exp (xr v - M) :=
      Finset.sum_pos (fun v _ => Real.exp_pos _) ⟨⟨0, by norm_num⟩, Finset.mem_univ _⟩
    rw [tilesBelow_all, sum_col (fun v => Real.exp (xr v - m)),
      sum_col (fun v => if BitVec.ofNat 32 v.val = L then xr v else 0), gold_sum xr L hlt] at hm
    unfold nllStream nllDirect logSoftmax
    rw [if_pos hI, if_pos hI, dif_pos hlt, hm, hM]
    simp only [← EReal.coe_sub, Ideal.exp_coe, coe_sum, Ideal.log_coe, if_neg (not_le.mpr hposm),
      if_neg (not_le.mpr hposM), ← EReal.coe_add, ← EReal.coe_neg]
    rw [EReal.coe_eq_coe_iff]
    have := shift_log_sum xr m M
    linarith

/-- So the two mean losses agree. -/
theorem lossStream_eq_lossDirect (x : Fin 8192 → Fin 32000 → EReal) (hx : ∀ r v, ∃ a : ℝ, x r v = (a : EReal))
    (lab : Fin 8192 → BitVec 32) (hL : ∀ r, lab r = ignoreWord ∨ (lab r).toNat < 32000) :
    lossStream x lab = lossDirect x lab := by
  unfold lossStream lossDirect
  exact congrArg (fun s => Ideal.div s (denom lab))
    (Finset.sum_congr rfl fun r _ => nllStream_eq_nllDirect (x r) (hx r) (lab r) (hL r))

/-- A sum of products of real numbers is a real number. -/
theorem sum_mul_real {n : ℕ} (a b : Fin n → EReal) (ha : ∀ k, ∃ r : ℝ, a k = (r : EReal)) (hb : ∀ k, ∃ r : ℝ, b k = (r : EReal)) :
    ∃ r : ℝ, ∑ k : Fin n, a k * b k = (r : EReal) := by
  choose ra hra using ha
  choose rb hrb using hb
  refine ⟨∑ k : Fin n, ra k * rb k, ?_⟩
  rw [← coe_sum]
  refine Finset.sum_congr rfl fun k _ => ?_
  rw [hra k, hrb k, EReal.coe_mul]

end Cert.CrossEntropy

end
-- ==== Proof.lean ====
/-
  The fused language-model head and cross-entropy against its reference, over the extended reals.

  Both programs return the logits `hidden · weightᵀ` (8192 rows × 32000 vocabulary entries, contracted over 2048
  hidden coordinates) and the mean over the rows whose label is not `-100` of `-log_softmax(logits)[label]`.
  The reference takes the row maximum, the sum of `exp (logit - max)`, and gathers the label's entry. The kernel
  walks the vocabulary in 25 tiles of 1280 columns and carries per row a running maximum (seeded with a large
  finite negative number), the sum of exponentials rescaled whenever the maximum moves, and the gold logit picked by
  comparing column numbers with the label. For finite inputs every logit is a real number, and for a label that is
  `-100` or a vocabulary entry the two forms agree: the rescaled sum is `exp (M - m)` times the direct sum, the
  logarithm of a product of positive reals is the sum of the logarithms, and exactly one column carries the label.
  The precondition supplies both facts: finite hidden states and weights, labels in `{-100} ∪ [0, 32000)`.
  The idealization rewrote nothing, so `preserves` is trivial; the three frames are the programs' runs with the
  results dropped.
-/
import proofs.«423124_j4733053960281_3_alg».proof.Defs
import proofs.«423124_j4733053960281_3_alg».proof.Proof.Gen.Kernel
import proofs.«423124_j4733053960281_3_alg».proof.Proof.Gen.Kernel.Frame
import proofs.«423124_j4733053960281_3_alg».proof.Proof.Gen.KernelIdeal
import proofs.«423124_j4733053960281_3_alg».proof.Proof.Gen.KernelIdeal.Frame
import proofs.«423124_j4733053960281_3_alg».proof.Proof.Gen.ReferenceIdeal
import proofs.«423124_j4733053960281_3_alg».proof.Proof.Gen.Pre_finite_inputs
import proofs.«423124_j4733053960281_3_alg».proof.Proof.KernelValue
import proofs.«423124_j4733053960281_3_alg».proof.Proof.RefValue
import proofs.«423124_j4733053960281_3_alg».proof.Proof.PreDecode
import proofs.«423124_j4733053960281_3_alg».proof.Proof.Spec
import Idealize.ShloMosaic.Adequacy
import Idealize.ShloMosaic.Init

noncomputable section

namespace Cert.Proof

open Idealize.ShloMosaic Idealize.SL.Sem Cert.CrossEntropy

/-- For finite inputs every logit is a real number. -/
theorem logit_real (A0 : SHid.Idx → EReal) (A1 : SWt.Idx → EReal) (h0 : ∀ i, ∃ a : ℝ, A0 i = (a : EReal))
    (h1 : ∀ i, ∃ a : ℝ, A1 i = (a : EReal)) (r : Fin 8192) (v : Fin 32000) : ∃ a : ℝ, logit A0 A1 r v = (a : EReal) :=
  sum_mul_real _ _ (fun k => h0 _) (fun k => h1 _)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the same loss and the same logits. -/
theorem algebraic : Cert.algebraic_KernelIdeal_ReferenceIdeal := by
  intro m ρ m' ρ' hpre hagree
  have hdec := fun c => Cert.PreDecode.of_pre _ _ _ (hpre c)
  refine ⟨fun c => (fun _ => lossStream (Cert.KernelIdeal.RowValue.xrow m c) (Cert.KernelIdeal.RowValue.lab m c)),
    fun c => logits3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  have hL : ∀ (c : Dev Cert.ReferenceIdeal.nD) (r : Fin 8192),
      label (m' ((c.tc : Thread Cert.ReferenceIdeal.nD Cert.ReferenceIdeal.τ).loc Cert.ReferenceIdeal.main_arg2)) r = ignoreWord
        ∨ (label (m' ((c.tc : Thread Cert.ReferenceIdeal.nD Cert.ReferenceIdeal.τ).loc Cert.ReferenceIdeal.main_arg2)) r).toNat < 32000 := by
    intro c r
    rw [(hagree c).2.2]
    exact (hdec c).2.2 _
  refine (θ_run Cert.ReferenceIdeal.defs _ _).mono (fun _ h c => ⟨(h c).1.trans ?_, (h c).2.1.trans ?_, (h c).2.2⟩)
    (Cert.ReferenceIdeal.RefValue.run m' ρ' hL)
  · rw [(hagree c).1, (hagree c).2.1, (hagree c).2.2]
    funext _
    exact (lossStream_eq_lossDirect _ (logit_real _ _ (hdec c).1 (hdec c).2.1) _ (fun r => (hdec c).2.2 _)).symm
  · rw [(hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
